-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel

variable [Facts]

def fn_part1 {F : FTy → Type} [FloatOps F] (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  main_v18

def fn {F : FTy → Type} [FloatOps F] (main_arg0 : FVec F S2048x16384 .f32) (main_arg1 : FVec F S2048x16384 .f32) (main_arg2 : FVec F S2048x16384 .f32) (main_arg3 : FVec F S2048x16384 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_v13 main_v16
-- ==== Kernel.lean ====
abbrev S2048x16384 : Shape := ⟨2, ![2048, 16384]⟩
abbrev S64x128 : Shape := ⟨2, ![64, 128]⟩
abbrev S256x1024 : Shape := ⟨2, ![256, 1024]⟩
abbrev S8x128 : Shape := ⟨2, ![8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 23
  | .vmem => 14
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S64x128, .f32⟩
  | .hbm, ⟨5, _⟩ => ⟨S64x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_cst_6 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v94 : BitVec 1 := Scalar.cmpi .eq arg1 c15_i32
  let v95 : BitVec 32 := Scalar.extui v94
  let c0_i32_43 : BitVec 32 := 0#32
  let v96 : BitVec 1 := Scalar.cmpi .ne v95 c0_i32_43
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  reducesTo_S64x128_S_d0_1 : S64x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x16384.size a
  hwx0_0 : ∀ i : grid0.Coords, EltTy.bits .f32 = 32 ∨ (Rect.block (s := S2048x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x16384.size a
  hwx0_1 : ∀ i : grid0.Coords, EltTy.bits .f32 = 32 ∨ (Rect.block (s := S2048x16384) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x16384.size a
  hwx0_2 : ∀ i : grid0.Coords, EltTy.bits .f32 = 32 ∨ (Rect.block (s := S2048x16384) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x16384.size a
  hwx0_3 : ∀ i : grid0.Coords, EltTy.bits .f32 = 32 ∨ (Rect.block (s := S2048x16384) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)

variable [Facts₀]

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x16384 : Shape := ⟨2, ![2048, 16384]⟩
abbrev S4 : Shape := ⟨1, ![4]⟩
abbrev S_ : Shape := ⟨0, ![]⟩
abbrev S33554432 : Shape := ⟨1, ![33554432]⟩
abbrev S33554432x1 : Shape := ⟨2, ![33554432, 1]⟩

abbrev nBuf : Space → Nat
  | .hbm => 106
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x16384, .f32⟩
  | .hbm, ⟨9, _⟩ => ⟨S2048x16384, .f32⟩
  | .hbm, ⟨10, _⟩ => ⟨S_, .f32⟩
  | .hbm, ⟨11, _⟩ => ⟨S2048x16384, .f32⟩
  | .hbm, ⟨12, _⟩ => ⟨S2048x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x16384, .f32⟩
  | .hbm, ⟨17, _⟩ => ⟨S2048x16384, .f32⟩
  | .hbm, ⟨18, _⟩ => ⟨S_, .f32⟩
  | .hbm, ⟨19, _⟩ => ⟨S2048x16384, .f32⟩
  | .hbm, ⟨20, _⟩ => ⟨S2048x16384, .f32⟩
  | .hbm, ⟨21, _⟩ => ⟨S2048x16384, .f32⟩
  | .hbm, ⟨22, _⟩ => ⟨S_, .f32⟩
  | .hbm, ⟨23, _⟩ => ⟨S2048x16384, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S_, .f32⟩
  | .hbm, ⟨28, _⟩ => ⟨S2048x16384, .f32⟩
  | .hbm, ⟨29, _⟩ => ⟨S2048x16384, .f32⟩
  | .hbm, ⟨30, _⟩ => ⟨S2048x16384, .f32⟩
  | .hbm, ⟨31, _⟩ => ⟨S_, .f32⟩
  | .hbm, ⟨32, _⟩ => ⟨S2048x16384, .f32⟩
  | .hbm, ⟨33, _⟩ => ⟨S2048x16384, .f32⟩
  | .hbm, ⟨34, _⟩ => ⟨S2048x16384, .f32⟩
  | .hbm, ⟨35, _⟩ => ⟨S2048x16384, .f32⟩
  | .hbm, ⟨36, _⟩ => ⟨S2048x16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S33554432, .f32⟩
  | .hbm, ⟨42, _⟩ => ⟨S33554432, .f32⟩
  | .hbm, ⟨43, _⟩ => ⟨S33554432, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S33554432, .f32⟩
  | .hbm, ⟨48, _⟩ => ⟨S33554432, .f32⟩
  | .hbm, ⟨49, _⟩ => ⟨S_, .f32⟩
  | .hbm, ⟨50, _⟩ => ⟨S33554432, .f32⟩
  | .hbm, ⟨51, _⟩ => ⟨S33554432, .f32⟩
  | .hbm, ⟨52, _⟩ => ⟨S33554432, .i32⟩
  | .hbm, ⟨53, _⟩ => ⟨S_, .i32⟩
  | .hbm, ⟨54, _⟩ => ⟨S33554432, .i32⟩
  | .hbm, ⟨55, _⟩ => ⟨S33554432, .i1⟩
  | .hbm, ⟨56, _⟩ => ⟨S_, .i32⟩
  | .hbm, ⟨57, _⟩ => ⟨S33554432, .i32⟩
  | .hbm, ⟨58, _⟩ => ⟨S33554432, .i32⟩
  | .hbm, ⟨59, _⟩ => ⟨S33554432, .i32⟩
  | .hbm, ⟨60, _⟩ => ⟨S33554432x1, .i32⟩
  | .hbm, ⟨61, _⟩ => ⟨S33554432, .f32⟩
  | .hbm, ⟨62, _⟩ => ⟨S33554432, .f32⟩
  | .hbm, ⟨63, _⟩ => ⟨S33554432, .f32⟩
  | .hbm, ⟨64, _⟩ => ⟨S_, .f32⟩
  | .hbm, ⟨65, _⟩ => ⟨S33554432, .f32⟩
  | .hbm, ⟨66, _⟩ => ⟨S33554432, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S33554432, .f32⟩
  | .hbm, ⟨71, _⟩ => ⟨S33554432, .f32⟩
  | .hbm, ⟨72, _⟩ => ⟨S_, .f32⟩
  | .hbm, ⟨73, _⟩ => ⟨S33554432, .f32⟩
  | .hbm, ⟨74, _⟩ => ⟨S33554432, .f32⟩
  | .hbm, ⟨75, _⟩ => ⟨S_, .f32⟩
  | .hbm, ⟨76, _⟩ => ⟨S33554432, .f32⟩
  | .hbm, ⟨77, _⟩ => ⟨S33554432, .f32⟩
  | .hbm, ⟨78, _⟩ => ⟨S_, .f32⟩
  | .hbm, ⟨79, _⟩ => ⟨S33554432, .f32⟩
  | .hbm, ⟨80, _⟩ => ⟨S33554432, .i1⟩
  | .hbm, ⟨81, _⟩ => ⟨S_, .f32⟩
  | .hbm, ⟨82, _⟩ => ⟨S33554432, .f32⟩
  | .hbm, ⟨83, _⟩ => ⟨S33554432, .f32⟩
  | .hbm, ⟨84, _⟩ => ⟨S33554432, .f32⟩
  | .hbm, ⟨85, _⟩ => ⟨S_, .f32⟩
  | .hbm, ⟨86, _⟩ => ⟨S33554432, .f32⟩
  | .hbm, ⟨87, _⟩ => ⟨S33554432, .f32⟩
  | .hbm, ⟨88, _⟩ => ⟨S_, .f32⟩
  | .hbm, ⟨89, _⟩ => ⟨S33554432, .f32⟩
  | .hbm, ⟨90, _⟩ => ⟨S33554432, .f32⟩
  | .hbm, ⟨91, _⟩ => ⟨S33554432, .f32⟩
  | .hbm, ⟨92, _⟩ => ⟨S_, .f32⟩
  | .hbm, ⟨93, _⟩ => ⟨S33554432, .f32⟩
  | .hbm, ⟨94, _⟩ => ⟨S33554432, .f32⟩
  | .hbm, ⟨95, _⟩ => ⟨S33554432, .f32⟩
  | .hbm, ⟨96, _⟩ => ⟨S33554432, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_cst_4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_5 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_6 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_7 : Ref sig .tc := ⟨.hbm, 37, rfl⟩
abbrev main_v15 : Ref sig .tc := ⟨.hbm, 38, rfl⟩
abbrev main_cst_8 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_9 : Ref sig .tc := ⟨.hbm, 44, rfl⟩
abbrev main_cst_10 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v20 : Ref sig .tc := ⟨.hbm, 51, rfl⟩
abbrev main_v21 : Ref sig .tc := ⟨.hbm, 52, rfl⟩
abbrev main_c : Ref sig .tc := ⟨.hbm, 53, rfl⟩
abbrev main_v22 : Ref sig .tc := ⟨.hbm, 54, rfl⟩
abbrev main_v23 : Ref sig .tc := ⟨.hbm, 55, rfl⟩
abbrev main_c_11 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_cst_13 : Ref sig .tc := ⟨.hbm, 67, rfl⟩
abbrev main_cst_14 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v33 : Ref sig .tc := ⟨.hbm, 74, rfl⟩
abbrev main_cst_15 : Ref sig .tc := ⟨.hbm, 75, rfl⟩
abbrev main_v34 : Ref sig .tc := ⟨.hbm, 76, rfl⟩
abbrev main_v35 : Ref sig .tc := ⟨.hbm, 77, rfl⟩
abbrev main_cst_16 : Ref sig .tc := ⟨.hbm, 78, rfl⟩
abbrev main_v36 : Ref sig .tc := ⟨.hbm, 79, rfl⟩
abbrev main_v37 : Ref sig .tc := ⟨.hbm, 80, rfl⟩
abbrev main_cst_17 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_18 : Ref sig .tc := ⟨.hbm, 85, rfl⟩
abbrev main_v41 : Ref sig .tc := ⟨.hbm, 86, rfl⟩
abbrev main_v42 : Ref sig .tc := ⟨.hbm, 87, rfl⟩
abbrev main_cst_19 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_20 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_21 : Ref sig .tc := ⟨.hbm, 97, rfl⟩
abbrev main_v50 : Ref sig .tc := ⟨.hbm, 98, rfl⟩
abbrev main_cst_22 : Ref sig .tc := ⟨.hbm, 99, rfl⟩
abbrev main_v51 : Ref sig .tc := ⟨.hbm, 100, rfl⟩
abbrev main_cst_23 : Ref sig .tc := ⟨.hbm, 101, rfl⟩
abbrev main_v52 : Ref sig .tc := ⟨.hbm, 102, rfl⟩
abbrev main_cst_24 : Ref sig .tc := ⟨.hbm, 103, rfl⟩
abbrev main_v53 : Ref sig .tc := ⟨.hbm, 104, rfl⟩
abbrev main_v54 : Ref sig .tc := ⟨.hbm, 105, rfl⟩

abbrev nD : Nat := 1
abbrev τ : Topo := Topo.v7x

variable {F : FTy → Type} [FloatOps F]

class Facts₀ : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  shapeCasts_S2048x16384_S33554432 : S2048x16384.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S33554432_S_d0 : S33554432.ReducesTo [0] S_
  gather_S4_S33554432x1_S33554432_n_0_n_n_0_1_1_wf : GatherDims.WF S4 S33554432x1 S33554432 [] [0] [] [0] [] 1 ![1]

variable [Facts₀]

def gather_S4_S33554432x1_S33554432_n_0_n_n_0_1_1 : GatherDims S4 S33554432x1 S33554432 where
  offsetDims := []
  collapsedSliceDims := [0]
  operandBatchingDims := []
  startIndicesBatchingDims := []
  startIndexMap := [0]
  indexVectorDim := 1
  sliceSizes := ![1]
  wf := gather_S4_S33554432x1_S33554432_n_0_n_n_0_1_1_wf

class Facts : Prop extends Facts₀ where

variable [Facts]
-- ==== Proof.KAcc.lean ====
/-
  One grid point's two accumulator updates, as functions of the point's input tiles and of what the accumulators held:
  the break-loss accumulator gains the tile's break-loss sum, the regression accumulator the tile's regression sum,
  each replicated over the [8, 128] accumulator.
-/
import proofs.«128348_j80341658239297_1_alg».proof.Proof.Gen.KernelIdeal.Skeleton

noncomputable section

namespace Cert.KernelIdeal.Acc

open Cert.KernelIdeal Cert.KernelIdeal.Gen Idealize.ShloMosaic

variable {F : FTy → Type} [FloatOps F]

/-- The break-loss accumulator after a point: what it held (`s`) plus the tile's sum, from the predictions tile `x0` and
    the targets tile `x2`. -/
def acc0 (x0 x2 : Vec F S256x1024 .f32) (s : Vec F S8x128 .f32) : Vec F S8x128 .f32 :=
  k0_pay5 (k0_pay4 x0 x2 s)

/-- The regression accumulator after a point, from the predictions tile `x1` and the targets tile `x3`. -/
def acc1 (x1 x3 : Vec F S256x1024 .f32) (s : Vec F S8x128 .f32) : Vec F S8x128 .f32 :=
  k0_pay1 (k0_pay6 x3) (k0_pay7 x1 x3) (k0_pay8 x1 x3) (k0_pay9 x1 x3) (k0_pay10 x1 x3) s

/-- The zero block a row's first point resets the break-loss accumulator to, -/
abbrev zero0 : Vec F S8x128 .f32 := k0_pay2 (F := F)
/-- and the regression accumulator to. -/
abbrev zero1 : Vec F S8x128 .f32 := k0_pay3 (F := F)

end Cert.KernelIdeal.Acc

end
-- ==== Proof.KPieces.lean ====
/-
  What each control case of the kernel body leaves in the two accumulators and, at a row's last point, in the two
  output blocks: the case's stores read back as values. A row's first point stores zero and then the zero plus the
  tile's sum; every later point stores what the point before left plus the tile's sum; the last point also copies
  both accumulators into the output blocks.
-/
import proofs.«128348_j80341658239297_1_alg».proof.Proof.Gen.KernelIdeal.Frame
import proofs.«128348_j80341658239297_1_alg».proof.Proof.KAcc
import Idealize.ShloMosaic.Lib.Pipeline.Value
import Idealize.ShloMosaic.Lib.Tactic

noncomputable section

namespace Cert.KernelIdeal.Pieces

open Cert.KernelIdeal Cert.KernelIdeal.Gen Cert.KernelIdeal.Acc
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A row's first point leaves, in the break-loss accumulator, zero plus the tile's sum. -/
theorem sA0 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 x1 x2 x3 : Vec F S256x1024 .f32) :
    sout0_A_0 c i arg2 harg2 arg3 harg3 arg4 harg4 arg5 harg5 arg6 harg6 arg7 harg7 arg8 harg8 arg9 harg9 hc0 hc1 x0 x1 x2 x3 = acc0 x0 x2 zero0 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x128) hz, View.readCov_unit_zero (S := S8x128) _ hz]
  unfold acc0
  simp only [View.readAt_eq_ld, harg2.read_unread, harg4.read_unread, harg8.read_unread, View.readCov_unit_zero (S := S8x128) _ hz, View.ld_unit_zero (S := S256x1024) hz, View.ld_unit_zero (S := S8x128) hz, shapeCast_self]

/-- A row's first point leaves, in the regression accumulator, zero plus the tile's sum. -/
theorem sA1 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 x1 x2 x3 : Vec F S256x1024 .f32) :
    sout0_A_1 c i arg2 harg2 arg3 harg3 arg4 harg4 arg5 harg5 arg6 harg6 arg7 harg7 arg8 harg8 arg9 harg9 hc0 hc1 x0 x1 x2 x3 = acc1 x1 x3 zero1 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x128) hz, View.readCov_unit_zero (S := S8x128) _ hz]
  unfold acc1
  simp only [View.readAt_eq_ld, harg3.read_unread, harg5.read_unread, harg9.read_unread, View.readCov_unit_zero (S := S8x128) _ hz, View.ld_unit_zero (S := S256x1024) hz, View.ld_unit_zero (S := S8x128) hz, shapeCast_self]

/-- A middle point adds the tile's sum to what the break-loss accumulator held. -/
theorem sB0 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 x1 x2 x3 : Vec F S256x1024 .f32) (xs0 xs1 : Vec F S8x128 .f32) :
    sout0_B_0 c i arg2 harg2 arg3 harg3 arg4 harg4 arg5 harg5 arg6 harg6 arg7 harg7 arg8 harg8 arg9 harg9 hc0 hc1 x0 x1 x2 x3 xs0 xs1 = acc0 x0 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  unfold acc0
  simp only [View.readAt_eq_ld, harg2.read_unread, harg4.read_unread, harg8.read_unread, View.readCov_unit_zero (S := S8x128) _ hz, View.ld_unit_zero (S := S256x1024) hz, View.ld_unit_zero (S := S8x128) hz, shapeCast_self]

/-- A middle point adds the tile's sum to what the regression accumulator held. -/
theorem sB1 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 x1 x2 x3 : Vec F S256x1024 .f32) (xs0 xs1 : Vec F S8x128 .f32) :
    sout0_B_1 c i arg2 harg2 arg3 harg3 arg4 harg4 arg5 harg5 arg6 harg6 arg7 harg7 arg8 harg8 arg9 harg9 hc0 hc1 x0 x1 x2 x3 xs0 xs1 = acc1 x1 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  unfold acc1
  simp only [View.readAt_eq_ld, harg3.read_unread, harg5.read_unread, harg9.read_unread, View.readCov_unit_zero (S := S8x128) _ hz, View.ld_unit_zero (S := S256x1024) hz, View.ld_unit_zero (S := S8x128) hz, shapeCast_self]

/-- A row's last point does the same to the break-loss accumulator, -/
theorem sC0 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 x1 x2 x3 : Vec F S256x1024 .f32) (xs0 xs1 : Vec F S8x128 .f32) :
    sout0_C_0 c i arg2 harg2 arg3 harg3 arg4 harg4 arg5 harg5 arg6 harg6 arg7 harg7 arg8 harg8 arg9 harg9 hc0 hc1 x0 x1 x2 x3 xs0 xs1 = acc0 x0 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  unfold acc0
  simp only [View.readAt_eq_ld, harg2.read_unread, harg4.read_unread, harg8.read_unread, View.readCov_unit_zero (S := S8x128) _ hz, View.ld_unit_zero (S := S256x1024) hz, View.ld_unit_zero (S := S8x128) hz, shapeCast_self]

/-- and to the regression accumulator, -/
theorem sC1 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 x1 x2 x3 : Vec F S256x1024 .f32) (xs0 xs1 : Vec F S8x128 .f32) :
    sout0_C_1 c i arg2 harg2 arg3 harg3 arg4 harg4 arg5 harg5 arg6 harg6 arg7 harg7 arg8 harg8 arg9 harg9 hc0 hc1 x0 x1 x2 x3 xs0 xs1 = acc1 x1 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  unfold acc1
  simp only [View.readAt_eq_ld, harg3.read_unread, harg5.read_unread, harg9.read_unread, View.readCov_unit_zero (S := S8x128) _ hz, View.ld_unit_zero (S := S256x1024) hz, View.ld_unit_zero (S := S8x128) hz, shapeCast_self]

/-- and stores the updated break-loss accumulator into the first output block -/
theorem oC4 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 x1 x2 x3 : Vec F S256x1024 .f32) (xs0 xs1 : Vec F S8x128 .f32) :
    out0_C_4 c i arg2 harg2 arg3 harg3 arg4 harg4 arg5 harg5 arg6 harg6 arg7 harg7 arg8 harg8 arg9 harg9 hc0 hc1 x0 x1 x2 x3 xs0 xs1 = acc0 x0 x2 xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  unfold acc0
  simp only [View.readAt_eq_ld, harg2.read_unread, harg4.read_unread, harg8.read_unread, View.readCov_unit_zero (S := S8x128) _ hz, View.ld_unit_zero (S := S256x1024) hz, View.ld_unit_zero (S := S8x128) hz, shapeCast_self]

/-- and the updated regression accumulator into the second. -/
theorem oC5 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 x1 x2 x3 : Vec F S256x1024 .f32) (xs0 xs1 : Vec F S8x128 .f32) :
    out0_C_5 c i arg2 harg2 arg3 harg3 arg4 harg4 arg5 harg5 arg6 harg6 arg7 harg7 arg8 harg8 arg9 harg9 hc0 hc1 x0 x1 x2 x3 xs0 xs1 = acc1 x1 x3 xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  unfold acc1
  simp only [View.readAt_eq_ld, harg3.read_unread, harg5.read_unread, harg9.read_unread, View.readCov_unit_zero (S := S8x128) _ hz, View.ld_unit_zero (S := S256x1024) hz, View.ld_unit_zero (S := S8x128) hz, shapeCast_self]

end Cert.KernelIdeal.Pieces

end
-- ==== Proof.KInv.lean ====
/-
  The accumulators point by point. Grid point n = 16 i + j works on tile (i, j). At j = 0 both accumulators restart from
  zero; otherwise each continues from what point n - 1 left. At j = 15 the output blocks receive the accumulators.
  By induction on the point over the three control cases.
-/
import proofs.«128348_j80341658239297_1_alg».proof.Proof.KPieces

noncomputable section

namespace Cert.KernelIdeal.Inv

open Cert.KernelIdeal Cert.KernelIdeal.Gen Cert.KernelIdeal.Acc Cert.KernelIdeal.Pieces
open Idealize.ShloMosaic Idealize.ShloMosaic.TcCoe Idealize.SL.Sem

variable {F : FTy → Type} [FloatOps F]
variable (m : (ℓ : Loc nD τ sig) → Buf (Elt F) ℓ)

/-- The four input tiles at a grid point, at their literal type: break predictions, regression predictions, break
    targets, regression targets. -/
abbrev xb0 (c : Dev nD) (t : Fin cfg0.N) : Vec F S256x1024 .f32 := iblk m c 0 t
abbrev xb1 (c : Dev nD) (t : Fin cfg0.N) : Vec F S256x1024 .f32 := iblk m c 1 t
abbrev xb2 (c : Dev nD) (t : Fin cfg0.N) : Vec F S256x1024 .f32 := iblk m c 2 t
abbrev xb3 (c : Dev nD) (t : Fin cfg0.N) : Vec F S256x1024 .f32 := iblk m c 3 t

/-- The break-loss accumulator after point `n`. -/
def sc0 (c : Dev nD) : (n : ℕ) → n < cfg0.N → Vec F S8x128 .f32
  | 0, h => acc0 (xb0 m c ⟨0, h⟩) (xb2 m c ⟨0, h⟩) zero0
  | n + 1, h =>
    if (n + 1) % 16 = 0 then acc0 (xb0 m c ⟨n + 1, h⟩) (xb2 m c ⟨n + 1, h⟩) zero0
    else acc0 (xb0 m c ⟨n + 1, h⟩) (xb2 m c ⟨n + 1, h⟩) (sc0 c n (Nat.lt_of_succ_lt h))

/-- The regression accumulator after point `n`. -/
def sc1 (c : Dev nD) : (n : ℕ) → n < cfg0.N → Vec F S8x128 .f32
  | 0, h => acc1 (xb1 m c ⟨0, h⟩) (xb3 m c ⟨0, h⟩) zero1
  | n + 1, h =>
    if (n + 1) % 16 = 0 then acc1 (xb1 m c ⟨n + 1, h⟩) (xb3 m c ⟨n + 1, h⟩) zero1
    else acc1 (xb1 m c ⟨n + 1, h⟩) (xb3 m c ⟨n + 1, h⟩) (sc1 c n (Nat.lt_of_succ_lt h))

/-- A row's first point restarts the break-loss accumulator from zero. -/
private theorem sc0_reset (c : Dev nD) (n : ℕ) (h : n + 1 < cfg0.N) (h0 : (n + 1) % 16 = 0) :
    sc0 m c (n + 1) h = acc0 (xb0 m c ⟨n + 1, h⟩) (xb2 m c ⟨n + 1, h⟩) zero0 := by
  rw [sc0, if_pos h0]

/-- Any other point continues the break-loss accumulator from the point before. -/
private theorem sc0_step (c : Dev nD) (n : ℕ) (h : n + 1 < cfg0.N) (h0 : ¬(n + 1) % 16 = 0) :
    sc0 m c (n + 1) h = acc0 (xb0 m c ⟨n + 1, h⟩) (xb2 m c ⟨n + 1, h⟩) (sc0 m c n (Nat.lt_of_succ_lt h)) := by
  rw [sc0, if_neg h0]

/-- A row's first point restarts the regression accumulator from zero. -/
private theorem sc1_reset (c : Dev nD) (n : ℕ) (h : n + 1 < cfg0.N) (h0 : (n + 1) % 16 = 0) :
    sc1 m c (n + 1) h = acc1 (xb1 m c ⟨n + 1, h⟩) (xb3 m c ⟨n + 1, h⟩) zero1 := by
  rw [sc1, if_pos h0]

/-- Any other point continues the regression accumulator from the point before. -/
private theorem sc1_step (c : Dev nD) (n : ℕ) (h : n + 1 < cfg0.N) (h0 : ¬(n + 1) % 16 = 0) :
    sc1 m c (n + 1) h = acc1 (xb1 m c ⟨n + 1, h⟩) (xb3 m c ⟨n + 1, h⟩) (sc1 m c n (Nat.lt_of_succ_lt h)) := by
  rw [sc1, if_neg h0]

/-! The record at one point, component by component: the control case the point falls in, read through that case's
    piece. The carried components are stated over what the point before left. -/

private theorem ptA0 (c : Dev nD) (t : Fin cfg0.N) (h0 : t.val % 16 = 0) (h1 : ¬t.val % 16 = 15) :
    (outsAt0 m c t.val t.isLt).2.2.1 = acc0 (xb0 m c t) (xb2 m c t) zero0 := by
  rw [outsAt0_A m c t h0 h1]; dsimp only
  exact sA0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

private theorem ptA1 (c : Dev nD) (t : Fin cfg0.N) (h0 : t.val % 16 = 0) (h1 : ¬t.val % 16 = 15) :
    (outsAt0 m c t.val t.isLt).2.2.2 = acc1 (xb1 m c t) (xb3 m c t) zero1 := by
  rw [outsAt0_A m c t h0 h1]; dsimp only
  exact sA1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

private theorem ptB0 (c : Dev nD) (t : Fin cfg0.N) (h0 : ¬t.val % 16 = 0) (h1 : ¬t.val % 16 = 15) :
    (outsAt0 m c t.val t.isLt).2.2.1 = acc0 (xb0 m c t) (xb2 m c t) (outsAt0 m c (t.val - 1) (Nat.lt_of_le_of_lt (Nat.sub_le _ _) t.isLt)).2.2.1 := by
  rw [outsAt0_B m c t h0 h1]; dsimp only
  exact sB0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

private theorem ptB1 (c : Dev nD) (t : Fin cfg0.N) (h0 : ¬t.val % 16 = 0) (h1 : ¬t.val % 16 = 15) :
    (outsAt0 m c t.val t.isLt).2.2.2 = acc1 (xb1 m c t) (xb3 m c t) (outsAt0 m c (t.val - 1) (Nat.lt_of_le_of_lt (Nat.sub_le _ _) t.isLt)).2.2.2 := by
  rw [outsAt0_B m c t h0 h1]; dsimp only
  exact sB1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

private theorem ptC0 (c : Dev nD) (t : Fin cfg0.N) (h0 : ¬t.val % 16 = 0) (h1 : t.val % 16 = 15) :
    (outsAt0 m c t.val t.isLt).2.2.1 = acc0 (xb0 m c t) (xb2 m c t) (outsAt0 m c (t.val - 1) (Nat.lt_of_le_of_lt (Nat.sub_le _ _) t.isLt)).2.2.1 := by
  rw [outsAt0_C m c t h0 h1]; dsimp only
  exact sC0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

private theorem ptC1 (c : Dev nD) (t : Fin cfg0.N) (h0 : ¬t.val % 16 = 0) (h1 : t.val % 16 = 15) :
    (outsAt0 m c t.val t.isLt).2.2.2 = acc1 (xb1 m c t) (xb3 m c t) (outsAt0 m c (t.val - 1) (Nat.lt_of_le_of_lt (Nat.sub_le _ _) t.isLt)).2.2.2 := by
  rw [outsAt0_C m c t h0 h1]; dsimp only
  exact sC1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

private theorem ptC4 (c : Dev nD) (t : Fin cfg0.N) (h0 : ¬t.val % 16 = 0) (h1 : t.val % 16 = 15) :
    (outsAt0 m c t.val t.isLt).1 = acc0 (xb0 m c t) (xb2 m c t) (outsAt0 m c (t.val - 1) (Nat.lt_of_le_of_lt (Nat.sub_le _ _) t.isLt)).2.2.1 := by
  rw [outsAt0_C m c t h0 h1]; dsimp only
  exact oC4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

private theorem ptC5 (c : Dev nD) (t : Fin cfg0.N) (h0 : ¬t.val % 16 = 0) (h1 : t.val % 16 = 15) :
    (outsAt0 m c t.val t.isLt).2.1 = acc1 (xb1 m c t) (xb3 m c t) (outsAt0 m c (t.val - 1) (Nat.lt_of_le_of_lt (Nat.sub_le _ _) t.isLt)).2.2.2 := by
  rw [outsAt0_C m c t h0 h1]; dsimp only
  exact oC5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- What the run records after point `n` is these: the two carried accumulators at every point, and the two output
    blocks at a row's last point. -/
theorem outsAt_eq (c : Dev nD) : ∀ (n : ℕ) (h : n < cfg0.N),
    (outsAt0 m c n h).2.2.1 = sc0 m c n h ∧ (outsAt0 m c n h).2.2.2 = sc1 m c n h
      ∧ (n % 16 = 15 → (outsAt0 m c n h).1 = sc0 m c n h ∧ (outsAt0 m c n h).2.1 = sc1 m c n h) := by
  intro n
  induction n with
  | zero =>
    -- Point 0 opens a row: both accumulators restart, and it is not a row's last point.
    intro h
    have h0 : (⟨0, h⟩ : Fin cfg0.N).val % 16 = 0 := Nat.zero_mod _
    have h1 : ¬(⟨0, h⟩ : Fin cfg0.N).val % 16 = 15 := fun e => absurd (show (0 : ℕ) % 16 = 15 from e) (by decide)
    exact ⟨ptA0 m c ⟨0, h⟩ h0 h1, ptA1 m c ⟨0, h⟩ h0 h1, fun h15 => absurd h15 (by decide)⟩
  | succ n ih =>
    intro h
    obtain ⟨ih0, ih1, -⟩ := ih (Nat.lt_of_succ_lt h)
    by_cases h0 : (n + 1) % 16 = 0
    · -- A row's first point: restart, and 0 ≠ 15.
      have h1 : ¬(n + 1) % 16 = 15 := by omega
      refine ⟨?_, ?_, fun h15 => absurd h15 h1⟩
      · rw [sc0_reset m c n h h0]; exact ptA0 m c ⟨n + 1, h⟩ h0 h1
      · rw [sc1_reset m c n h h0]; exact ptA1 m c ⟨n + 1, h⟩ h0 h1
    · rw [sc0_step m c n h h0, sc1_step m c n h h0, ← ih0, ← ih1]
      by_cases h1 : (n + 1) % 16 = 15
      · -- A row's last point: continue, and both output blocks receive the accumulators.
        exact ⟨ptC0 m c ⟨n + 1, h⟩ h0 h1, ptC1 m c ⟨n + 1, h⟩ h0 h1,
          fun _ => ⟨ptC4 m c ⟨n + 1, h⟩ h0 h1, ptC5 m c ⟨n + 1, h⟩ h0 h1⟩⟩
      · -- A middle point: continue.
        exact ⟨ptB0 m c ⟨n + 1, h⟩ h0 h1, ptB1 m c ⟨n + 1, h⟩ h0 h1, fun h15 => absurd h15 h1⟩

end Cert.KernelIdeal.Inv

end
-- ==== Proof.Spec.lean ====
/-
  The two losses element by element, and the sums that join a tiled accumulation to a whole-array mean.

  Break loss: with p and t clipped to [0, 1], one element contributes
      -(t · max (log p) (-100) + (1 - t) · max (log (1 - p)) (-100)).
  Regression loss: with d = |y_pred - y_true|, r = clip (d / 0.5) to [0, 1], the smooth-L1 value h(d)
  (d²·0.5/0.5 below 0.5, d - 0.25 from there on) and the class weight w of round(y_true) clipped to [0, 3],
  one element contributes 0.25 · r² · h(d) · w.  One program squares r by a product, the other by a power with
  exponent 2; one selects the weight by comparing the class with 0, 1, 2, the other looks it up in the table
  [1, 4, 3, 2].  On the extended reals the two agree: r is a real in [0, 1], and the class is one of 0, 1, 2, 3.

  The sums: the [2048, 16384] arrays are cut into 8 × 16 tiles of [256, 1024]; a row of 16 tiles is accumulated
  left to right from zero, the 8 row totals are each replicated 8 · 128 = 1024 times, summed, and divided by 1024
  and by the element count.  Over the extended reals addition is commutative and associative, so the tile sums
  regroup into the whole sum; and (1024 copies of S summed) / 1024 = S for every extended real S, infinite ones
  included, so no finiteness is needed anywhere.
-/
import Idealize.ShloMosaic.PureOps.Ideal
import Idealize.ShloMosaic.PureOps.Ideal.Laws
import Idealize.ShloMosaic.Lib.ValueIdx

noncomputable section

namespace Cert.Proof.Loss

open Idealize.ShloMosaic Idealize.ShloMosaic.ValueIdx

/-- An f32 literal as the extended real its word denotes. -/
abbrev lit (b : BitVec 32) : EReal := Ideal.ofBits .f32 b

/-- Clipping to [0, 1]. -/
def clip01 (x : EReal) : EReal := min (lit 0x3F800000#32) (max (lit 0x00000000#32) x)

/-- One element's break-loss term, the negations written as subtractions from zero. -/
def bceK (p t : EReal) : EReal :=
  lit 0x00000000#32 - (clip01 t * max (Ideal.log (clip01 p)) (lit 0xC2C80000#32)
    + (lit 0x3F800000#32 - clip01 t) * max (Ideal.log1p (lit 0x00000000#32 - clip01 p)) (lit 0xC2C80000#32))

/-- One element's break-loss term, with negations. -/
def bceR (p t : EReal) : EReal :=
  -(clip01 t * max (Ideal.log (clip01 p)) (lit 0xC2C80000#32)
    + (lit 0x3F800000#32 - clip01 t) * max (Ideal.log1p (-(clip01 p))) (lit 0xC2C80000#32))

/-- The distance |y_pred - y_true|. -/
def dist (yp yt : EReal) : EReal := max (yp - yt) (-(yp - yt))

/-- The focal ramp: d / 0.5 clipped to [0, 1]. -/
def ramp (d : EReal) : EReal := min (lit 0x3F800000#32) (max (lit 0x00000000#32) (Ideal.div d (lit 0x3F000000#32)))

/-- Smooth L1 with threshold 0.5. -/
def huber (d : EReal) : EReal :=
  Scalar.select (Ideal.cmp .olt d (lit 0x3F000000#32))
    (Ideal.div (lit 0x3F000000#32 * d * d) (lit 0x3F000000#32)) (d - lit 0x3E800000#32)

/-- The class of a target: rounded to nearest even, clipped to [0, 3], as a 32-bit integer. -/
def cls (yt : EReal) : BitVec 32 :=
  Ideal.fptosi 32 (min (lit 0x40400000#32) (max (lit 0x00000000#32) (Ideal.liftRound Ideal.roundHalfEven yt)))

/-- The class weight by comparisons: 1, 4, 3 for classes 0, 1, 2 and 2 otherwise. -/
def wSel (i : BitVec 32) : EReal :=
  Scalar.select (IntOp.cmpi .eq i 0#32) (lit 0x3F800000#32)
    (Scalar.select (IntOp.cmpi .eq i 1#32) (lit 0x40800000#32)
      (Scalar.select (IntOp.cmpi .eq i 2#32) (lit 0x40400000#32) (lit 0x40000000#32)))

/-- One element's regression term with the ramp squared by a product. -/
def regK (yp yt : EReal) : EReal :=
  lit 0x3E800000#32 * (ramp (dist yp yt) * ramp (dist yp yt)) * huber (dist yp yt) * wSel (cls yt)

/-- One element's regression term with the ramp raised to the power 2. -/
def regR (yp yt : EReal) : EReal :=
  lit 0x3E800000#32 * Ideal.pow (ramp (dist yp yt)) (lit 0x40000000#32) * huber (dist yp yt) * wSel (cls yt)

/-! ## Tiles and the whole array -/

/-- The sum of a pointwise term over one [256, 1024] tile. -/
def tileSum (f : EReal → EReal → EReal) (xa xb : (⟨2, ![256, 1024]⟩ : Shape).Idx → EReal) : EReal :=
  ∑ r : Fin 256, ∑ c : Fin 1024, f (xa (ix2 r c)) (xb (ix2 r c))

/-- Tile (i, j) of a [2048, 16384] array: rows 256 i …, columns 1024 j …. -/
def tileOf (a : (⟨2, ![2048, 16384]⟩ : Shape).Idx → EReal) (i : Fin 8) (j : Fin 16) :
    (⟨2, ![256, 1024]⟩ : Shape).Idx → EReal :=
  fun y => a (ix2 ⟨256 * i.val + (y 0).val, by have := i.isLt; have := idx2_lt0 y; omega⟩
                  ⟨1024 * j.val + (y 1).val, by have := j.isLt; have := idx2_lt1 y; omega⟩)

/-- The sum of a pointwise term over the whole [2048, 16384] array. -/
def wholeSum (f : EReal → EReal → EReal) (a b : (⟨2, ![2048, 16384]⟩ : Shape).Idx → EReal) : EReal :=
  ∑ R : Fin 2048, ∑ C : Fin 16384, f (a (ix2 R C)) (b (ix2 R C))

/-- Row block i's accumulator after its tile j: reset to zero before tile 0, then one tile sum added per tile. -/
def rowAcc (f : EReal → EReal → EReal) (a b : (⟨2, ![2048, 16384]⟩ : Shape).Idx → EReal) (i : Fin 8) :
    (j : ℕ) → j < 16 → EReal
  | 0, h => lit 0x00000000#32 + tileSum f (tileOf a i ⟨0, h⟩) (tileOf b i ⟨0, h⟩)
  | j + 1, h => rowAcc f a b i j (Nat.lt_of_succ_lt h) + tileSum f (tileOf a i ⟨j + 1, h⟩) (tileOf b i ⟨j + 1, h⟩)

/-- The kernel's mean of a pointwise term: the replicated row totals summed, over 1024, over 2^25. -/
def kMean (f : EReal → EReal → EReal) (a b : (⟨2, ![2048, 16384]⟩ : Shape).Idx → EReal) : EReal :=
  Ideal.div (Ideal.div (lit 0x00000000#32
      + ∑ r : Fin 64, ∑ _c : Fin 128, rowAcc f a b ⟨r.val / 8, by have := r.isLt; omega⟩ 15 (by decide))
    (lit 0x44800000#32)) (lit 0x4C000000#32)

/-- The reference's mean of a pointwise term: the whole sum from zero, over 2^25. -/
def rMean (f : EReal → EReal → EReal) (a b : (⟨2, ![2048, 16384]⟩ : Shape).Idx → EReal) : EReal :=
  Ideal.div (lit 0x00000000#32 + wholeSum f a b) (lit 0x4C000000#32)

/-- Pointwise-equal terms have equal means. -/
theorem rMean_congr (f g : EReal → EReal → EReal) (h : ∀ x y, f x y = g x y)
    (a b : (⟨2, ![2048, 16384]⟩ : Shape).Idx → EReal) : rMean f a b = rMean g a b := by
  unfold rMean wholeSum; simp only [h]

end Cert.Proof.Loss

end
-- ==== Proof.KTile.lean ====
/-
  One accumulator update read at an index, on the extended reals: every entry of the [8, 128] accumulator gains the
  same number, the sum over the tile's 256 rows of the sum over its 1024 columns of the element term — the row sums,
  then the column of row sums summed, then that one number replicated.
-/
import proofs.«128348_j80341658239297_1_alg».proof.Proof.KAcc
import proofs.«128348_j80341658239297_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Cert.KernelIdeal.Acc Cert.Proof
open Idealize.ShloMosaic Idealize.ShloMosaic.ValueIdx

/-! ## The layout steps between the two sums, read at an index -/

/-- A vector `[a]` cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array replicated to `[a, b]` reads its one entry everywhere. -/
private theorem broadcastTo_11_ab_apply {α : Type} {a b : ℕ} (v : (⟨2, ![1, 1]⟩ : Shape).Idx → α)
    (h : (⟨2, ![1, 1]⟩ : Shape).Broadcasts ⟨2, ![a, b]⟩) (y : (⟨2, ![a, b]⟩ : Shape).Idx) :
    broadcastTo ⟨2, ![a, b]⟩ v h y = v (ix2 (0 : Fin 1) (0 : Fin 1)) := by
  refine broadcastTo_apply v h y (ix2 (0 : Fin 1) (0 : Fin 1)) fun ax => ?_
  match ax with
  | ⟨0, _⟩ => rfl
  | ⟨1, _⟩ => rfl

/-! ## The two sums -/

/-- The sum along the columns: at row `r`, the sum over the 1024 columns. -/
private theorem rowSums_apply (v : FVec Ideal S256x1024 .f32) (r : Fin 256) :
    multiReduction (F := Ideal) .add [1] S256 v 0x00000000#32 reduces_S256x1024_S256 (.inl rfl) rfl (ix1 r)
      = ∑ c : Fin 1024, v (ix2 r c) := by
  refine (Ideal.multiReduction_add_single v 0x00000000#32 reduces_S256x1024_S256 (.inl rfl) rfl (ix1 r)).trans ?_
  refine Finset.sum_congr rfl fun c _ => congrArg v ?_
  funext a
  match a with
  | ⟨0, _⟩ => rfl
  | ⟨1, _⟩ => rfl

/-- The sum along the rows of a column `[256, 1]`: at its one index, the sum over the 256 rows. -/
private theorem colSum_apply (w : FVec Ideal S256x1 .f32) (u : Fin 1) :
    multiReduction (F := Ideal) .add [0] S1 w 0x00000000#32 reduces_S256x1_S1 (.inl rfl) rfl (ix1 u)
      = ∑ r : Fin 256, w (ix2 r u) := by
  refine (Ideal.multiReduction_add_single w 0x00000000#32 reduces_S256x1_S1 (.inl rfl) rfl (ix1 u)).trans ?_
  refine Finset.sum_congr rfl fun r _ => congrArg w ?_
  funext a
  match a with
  | ⟨0, _⟩ => rfl
  | ⟨1, _⟩ => rfl

/-- The tile's total replicated over the accumulator: the row sums, the column of row sums summed, that one number
    cast to `[1, 1]` and replicated to `[8, 128]`. -/
private def total (v : FVec Ideal S256x1024 .f32) : FVec Ideal S8x128 .f32 :=
  broadcastTo S8x128
    (shapeCast S1x1
      (shapeCast S1x1
        (multiReduction (F := Ideal) .add [0] S1
          (shapeCast S256x1
            (multiReduction (F := Ideal) .add [1] S256 v 0x00000000#32 reduces_S256x1024_S256 (.inl rfl) rfl)
            shapeCasts_S256_S256x1)
          0x00000000#32 reduces_S256x1_S1 (.inl rfl) rfl)
        shapeCasts_S1_S1x1)
      shapeCasts_S1x1_S1x1)
    broadcasts_S1x1_S8x128

/-- Every entry of the replicated total is the double sum over the tile. -/
private theorem total_apply (v : FVec Ideal S256x1024 .f32) (y : S8x128.Idx) :
    total v y = ∑ r : Fin 256, ∑ c : Fin 1024, v (ix2 r c) := by
  unfold total
  refine (broadcastTo_11_ab_apply _ broadcasts_S1x1_S8x128 y).trans ?_
  rw [shapeCast_self]
  refine (shapeCast_a_1a_apply _ shapeCasts_S1_S1x1 (0 : Fin 1) (0 : Fin 1)).trans ?_
  refine (colSum_apply _ (0 : Fin 1)).trans ?_
  refine Finset.sum_congr rfl fun r _ => ?_
  refine (shapeCast_a_a1_apply _ shapeCasts_S256_S256x1 r (0 : Fin 1)).trans ?_
  exact rowSums_apply v r

/-! ## The element terms -/

/-- The break-loss update is the held value plus the replicated total of the element term. -/
private theorem pay4_eq (x0 x2 : Vec Ideal S256x1024 .f32) (s : Vec Ideal S8x128 .f32) :
    k0_pay4 (F := Ideal) x0 x2 s = addf s (total fun i => Loss.bceK (x0 i) (x2 i)) := rfl

/-- The regression update likewise. -/
private theorem pay1_eq (x1 x3 : Vec Ideal S256x1024 .f32) (s : Vec Ideal S8x128 .f32) :
    k0_pay1 (F := Ideal) (k0_pay6 x3) (k0_pay7 x1 x3) (k0_pay8 x1 x3) (k0_pay9 x1 x3) (k0_pay10 x1 x3) s
      = shapeCast S8x128 (addf s (total fun i => Loss.regK (x1 i) (x3 i))) shapeCasts_S8x128_S8x128 := rfl

/-- The break-loss update adds the tile's break-loss sum to every entry. -/
theorem acc0_apply (x0 x2 : Vec Ideal S256x1024 .f32) (s : Vec Ideal S8x128 .f32) (y : S8x128.Idx) :
    acc0 (F := Ideal) x0 x2 s y = s y + Loss.tileSum Loss.bceK x0 x2 := by
  show shapeCast S8x128 (k0_pay4 (F := Ideal) x0 x2 s) shapeCasts_S8x128_S8x128 y = _
  rw [shapeCast_self, pay4_eq, addf_apply, total_apply]
  rfl

/-- The regression update adds the tile's regression sum to every entry. -/
theorem acc1_apply (x1 x3 : Vec Ideal S256x1024 .f32) (s : Vec Ideal S8x128 .f32) (y : S8x128.Idx) :
    acc1 (F := Ideal) x1 x3 s y = s y + Loss.tileSum Loss.regK x1 x3 := by
  show k0_pay1 (F := Ideal) (k0_pay6 x3) (k0_pay7 x1 x3) (k0_pay8 x1 x3) (k0_pay9 x1 x3) (k0_pay10 x1 x3) s y = _
  rw [pay1_eq, shapeCast_self, addf_apply, total_apply]
  rfl

/-- The reset blocks hold the zero literal. -/
theorem zero0_apply (y : S8x128.Idx) : (zero0 (F := Ideal)) y = Loss.lit 0x00000000#32 := by
  show shapeCast S8x128 (broadcast S8x128 (Loss.lit 0x00000000#32)) shapeCasts_S8x128_S8x128 y = _
  rw [shapeCast_self]
  rfl
theorem zero1_apply (y : S8x128.Idx) : (zero1 (F := Ideal)) y = Loss.lit 0x00000000#32 := by
  show shapeCast S8x128 (broadcast S8x128 (Loss.lit 0x00000000#32)) shapeCasts_S8x128_S8x128 y = _
  rw [shapeCast_self]
  rfl

end Cert.KernelIdeal.Tile

end
-- ==== Proof.KClosed.lean ====
/-
  The accumulators in closed form on the extended reals. The tile a grid point works on is tile (n / 16, n % 16) of
  each argument array, and the break-loss (regression) accumulator after point n holds, at every entry, the running
  sum of row block n / 16 after its tile n % 16.
-/
import proofs.«128348_j80341658239297_1_alg».proof.Proof.KInv
import proofs.«128348_j80341658239297_1_alg».proof.Proof.KTile

noncomputable section

namespace Cert.KernelIdeal.Closed

open Cert.KernelIdeal Cert.KernelIdeal.Gen Cert.KernelIdeal.Acc Cert.KernelIdeal.Inv Cert.KernelIdeal.Tile Cert.Proof
open Idealize.ShloMosaic Idealize.ShloMosaic.TcCoe Idealize.ShloMosaic.ValueIdx Idealize.SL.Sem

variable (m : (ℓ : Loc nD τ sig) → Buf (Elt Ideal) ℓ)

/-- The four argument arrays as functions of an index: break predictions, regression predictions, break targets,
    regression targets. -/
abbrev A0 (c : Dev nD) : (⟨2, ![2048, 16384]⟩ : Shape).Idx → EReal := m ((c.tc : Thread nD τ).loc main_arg0)
abbrev A1 (c : Dev nD) : (⟨2, ![2048, 16384]⟩ : Shape).Idx → EReal := m ((c.tc : Thread nD τ).loc main_arg1)
abbrev A2 (c : Dev nD) : (⟨2, ![2048, 16384]⟩ : Shape).Idx → EReal := m ((c.tc : Thread nD τ).loc main_arg2)
abbrev A3 (c : Dev nD) : (⟨2, ![2048, 16384]⟩ : Shape).Idx → EReal := m ((c.tc : Thread nD τ).loc main_arg3)

theorem row_lt (n : ℕ) (h : n < cfg0.N) : n / 16 < 8 := by
  have hN : cfg0.N = 128 := N_0
  omega

/-! ## Which tile a point reads

A block's coordinate in its array is the window's index times the block's extent plus the coordinate inside the block;
the four input windows' index maps send point t to (t / 16, t % 16), decided once over the 128 points. -/

private theorem idx_facts0 : ∀ t : Fin cfg0.N,
    win0_0.index t (0 : Fin 2) = t.val / 16 ∧ win0_0.index t (1 : Fin 2) = t.val % 16 :=
  (by decide +kernel : ∀ t : Fin grid0.N, _)
private theorem idx_facts1 : ∀ t : Fin cfg0.N,
    win0_1.index t (0 : Fin 2) = t.val / 16 ∧ win0_1.index t (1 : Fin 2) = t.val % 16 :=
  (by decide +kernel : ∀ t : Fin grid0.N, _)
private theorem idx_facts2 : ∀ t : Fin cfg0.N,
    win0_2.index t (0 : Fin 2) = t.val / 16 ∧ win0_2.index t (1 : Fin 2) = t.val % 16 :=
  (by decide +kernel : ∀ t : Fin grid0.N, _)
private theorem idx_facts3 : ∀ t : Fin cfg0.N,
    win0_3.index t (0 : Fin 2) = t.val / 16 ∧ win0_3.index t (1 : Fin 2) = t.val % 16 :=
  (by decide +kernel : ∀ t : Fin grid0.N, _)

/-- The tile point `t` reads from each argument array is tile (t / 16, t % 16). -/
theorem xb0_eq (c : Dev nD) (t : Fin cfg0.N) :
    xb0 m c t = Loss.tileOf (A0 m c) ⟨t.val / 16, row_lt t.val t.isLt⟩ ⟨t.val % 16, Nat.mod_lt _ (by decide)⟩ := by
  have hi := idx_facts0 t
  funext y
  unfold Loss.tileOf
  show iblk m c 0 t y = _
  unfold iblk
  rw [View.read_apply]
  show V m c main_arg0 _ = m (c.tc.loc main_arg0) _
  unfold V
  congr 1
  funext a
  apply Fin.ext
  match a with
  | ⟨0, _⟩ => show win0_0.index t 0 * 256 + 1 * (y 0).val = 256 * (t.val / 16) + (y 0).val; rw [hi.1]; omega
  | ⟨1, _⟩ => show win0_0.index t 1 * 1024 + 1 * (y 1).val = 1024 * (t.val % 16) + (y 1).val; rw [hi.2]; omega
theorem xb1_eq (c : Dev nD) (t : Fin cfg0.N) :
    xb1 m c t = Loss.tileOf (A1 m c) ⟨t.val / 16, row_lt t.val t.isLt⟩ ⟨t.val % 16, Nat.mod_lt _ (by decide)⟩ := by
  have hi := idx_facts1 t
  funext y
  unfold Loss.tileOf
  show iblk m c 1 t y = _
  unfold iblk
  rw [View.read_apply]
  show V m c main_arg1 _ = m (c.tc.loc main_arg1) _
  unfold V
  congr 1
  funext a
  apply Fin.ext
  match a with
  | ⟨0, _⟩ => show win0_1.index t 0 * 256 + 1 * (y 0).val = 256 * (t.val / 16) + (y 0).val; rw [hi.1]; omega
  | ⟨1, _⟩ => show win0_1.index t 1 * 1024 + 1 * (y 1).val = 1024 * (t.val % 16) + (y 1).val; rw [hi.2]; omega
theorem xb2_eq (c : Dev nD) (t : Fin cfg0.N) :
    xb2 m c t = Loss.tileOf (A2 m c) ⟨t.val / 16, row_lt t.val t.isLt⟩ ⟨t.val % 16, Nat.mod_lt _ (by decide)⟩ := by
  have hi := idx_facts2 t
  funext y
  unfold Loss.tileOf
  show iblk m c 2 t y = _
  unfold iblk
  rw [View.read_apply]
  show V m c main_arg2 _ = m (c.tc.loc main_arg2) _
  unfold V
  congr 1
  funext a
  apply Fin.ext
  match a with
  | ⟨0, _⟩ => show win0_2.index t 0 * 256 + 1 * (y 0).val = 256 * (t.val / 16) + (y 0).val; rw [hi.1]; omega
  | ⟨1, _⟩ => show win0_2.index t 1 * 1024 + 1 * (y 1).val = 1024 * (t.val % 16) + (y 1).val; rw [hi.2]; omega
theorem xb3_eq (c : Dev nD) (t : Fin cfg0.N) :
    xb3 m c t = Loss.tileOf (A3 m c) ⟨t.val / 16, row_lt t.val t.isLt⟩ ⟨t.val % 16, Nat.mod_lt _ (by decide)⟩ := by
  have hi := idx_facts3 t
  funext y
  unfold Loss.tileOf
  show iblk m c 3 t y = _
  unfold iblk
  rw [View.read_apply]
  show V m c main_arg3 _ = m (c.tc.loc main_arg3) _
  unfold V
  congr 1
  funext a
  apply Fin.ext
  match a with
  | ⟨0, _⟩ => show win0_3.index t 0 * 256 + 1 * (y 0).val = 256 * (t.val / 16) + (y 0).val; rw [hi.1]; omega
  | ⟨1, _⟩ => show win0_3.index t 1 * 1024 + 1 * (y 1).val = 1024 * (t.val % 16) + (y 1).val; rw [hi.2]; omega

/-! ## The accumulators

With the point written n = 16 i + j (row block i, tile j) the claim is an induction on n along the accumulator's own
recursion: at j = 0 the accumulator restarts from the zero block and gains tile (i, 0)'s sum, which is the running sum
after tile 0; at j + 1 it continues from point n - 1 = 16 i + j, the running sum after tile j by induction, and gains
tile (i, j + 1)'s sum. -/

/-- The tile lemmas with the row block and the tile as variables. -/
private theorem xb0_at (c : Dev nD) (n : ℕ) (h : n < cfg0.N) (i : ℕ) (hi : i < 8) (j : ℕ) (hj : j < 16)
    (e : n = 16 * i + j) : xb0 m c ⟨n, h⟩ = Loss.tileOf (A0 m c) ⟨i, hi⟩ ⟨j, hj⟩ := by
  rw [xb0_eq]
  congr 1
  · exact Fin.ext (show n / 16 = i by omega)
  · exact Fin.ext (show n % 16 = j by omega)
private theorem xb1_at (c : Dev nD) (n : ℕ) (h : n < cfg0.N) (i : ℕ) (hi : i < 8) (j : ℕ) (hj : j < 16)
    (e : n = 16 * i + j) : xb1 m c ⟨n, h⟩ = Loss.tileOf (A1 m c) ⟨i, hi⟩ ⟨j, hj⟩ := by
  rw [xb1_eq]
  congr 1
  · exact Fin.ext (show n / 16 = i by omega)
  · exact Fin.ext (show n % 16 = j by omega)
private theorem xb2_at (c : Dev nD) (n : ℕ) (h : n < cfg0.N) (i : ℕ) (hi : i < 8) (j : ℕ) (hj : j < 16)
    (e : n = 16 * i + j) : xb2 m c ⟨n, h⟩ = Loss.tileOf (A2 m c) ⟨i, hi⟩ ⟨j, hj⟩ := by
  rw [xb2_eq]
  congr 1
  · exact Fin.ext (show n / 16 = i by omega)
  · exact Fin.ext (show n % 16 = j by omega)
private theorem xb3_at (c : Dev nD) (n : ℕ) (h : n < cfg0.N) (i : ℕ) (hi : i < 8) (j : ℕ) (hj : j < 16)
    (e : n = 16 * i + j) : xb3 m c ⟨n, h⟩ = Loss.tileOf (A3 m c) ⟨i, hi⟩ ⟨j, hj⟩ := by
  rw [xb3_eq]
  congr 1
  · exact Fin.ext (show n / 16 = i by omega)
  · exact Fin.ext (show n % 16 = j by omega)

/-- The break-loss accumulator after point 16 i + j is row block i's running sum after tile j, at every entry. -/
private theorem sc0_at (c : Dev nD) : ∀ (n : ℕ) (h : n < cfg0.N) (i : ℕ) (hi : i < 8) (j : ℕ) (hj : j < 16),
    n = 16 * i + j → ∀ y : S8x128.Idx,
      sc0 m c n h y = Loss.rowAcc Loss.bceK (A0 m c) (A2 m c) ⟨i, hi⟩ j hj := by
  intro n
  induction n with
  | zero =>
    intro h i hi j hj e y
    obtain rfl : i = 0 := by omega
    obtain rfl : j = 0 := by omega
    rw [sc0, acc0_apply, zero0_apply, xb0_at m c 0 h 0 hi 0 hj e, xb2_at m c 0 h 0 hi 0 hj e]
    rfl
  | succ n ih =>
    intro h i hi j hj e y
    rw [sc0]
    cases j with
    | zero =>
      rw [if_pos (by omega), acc0_apply, zero0_apply, xb0_at m c (n + 1) h i hi 0 hj e,
        xb2_at m c (n + 1) h i hi 0 hj e]
      rfl
    | succ j =>
      rw [if_neg (by omega), acc0_apply, ih (Nat.lt_of_succ_lt h) i hi j (Nat.lt_of_succ_lt hj) (by omega) y,
        xb0_at m c (n + 1) h i hi (j + 1) hj e, xb2_at m c (n + 1) h i hi (j + 1) hj e]
      rfl

/-- The regression accumulator likewise. -/
private theorem sc1_at (c : Dev nD) : ∀ (n : ℕ) (h : n < cfg0.N) (i : ℕ) (hi : i < 8) (j : ℕ) (hj : j < 16),
    n = 16 * i + j → ∀ y : S8x128.Idx,
      sc1 m c n h y = Loss.rowAcc Loss.regK (A1 m c) (A3 m c) ⟨i, hi⟩ j hj := by
  intro n
  induction n with
  | zero =>
    intro h i hi j hj e y
    obtain rfl : i = 0 := by omega
    obtain rfl : j = 0 := by omega
    rw [sc1, acc1_apply, zero1_apply, xb1_at m c 0 h 0 hi 0 hj e, xb3_at m c 0 h 0 hi 0 hj e]
    rfl
  | succ n ih =>
    intro h i hi j hj e y
    rw [sc1]
    cases j with
    | zero =>
      rw [if_pos (by omega), acc1_apply, zero1_apply, xb1_at m c (n + 1) h i hi 0 hj e,
        xb3_at m c (n + 1) h i hi 0 hj e]
      rfl
    | succ j =>
      rw [if_neg (by omega), acc1_apply, ih (Nat.lt_of_succ_lt h) i hi j (Nat.lt_of_succ_lt hj) (by omega) y,
        xb1_at m c (n + 1) h i hi (j + 1) hj e, xb3_at m c (n + 1) h i hi (j + 1) hj e]
      rfl

/-- The break-loss accumulator after point `n`, at every entry, is row block n / 16's running sum after tile n % 16. -/
theorem sc0_eq (c : Dev nD) : ∀ (n : ℕ) (h : n < cfg0.N) (y : S8x128.Idx),
    sc0 m c n h y = Loss.rowAcc Loss.bceK (A0 m c) (A2 m c) ⟨n / 16, row_lt n h⟩ (n % 16) (Nat.mod_lt _ (by decide)) :=
  fun n h y => sc0_at m c n h (n / 16) (row_lt n h) (n % 16) (Nat.mod_lt _ (by decide)) (by omega) y

/-- The regression accumulator likewise. -/
theorem sc1_eq (c : Dev nD) : ∀ (n : ℕ) (h : n < cfg0.N) (y : S8x128.Idx),
    sc1 m c n h y = Loss.rowAcc Loss.regK (A1 m c) (A3 m c) ⟨n / 16, row_lt n h⟩ (n % 16) (Nat.mod_lt _ (by decide)) :=
  fun n h y => sc1_at m c n h (n / 16) (row_lt n h) (n % 16) (Nat.mod_lt _ (by decide)) (by omega) y

end Cert.KernelIdeal.Closed

end
-- ==== Proof.KRun.lean ====
/-
  The kernel program's results on the extended reals. Output block i of each [64, 128] result array is written once,
  after row block i's last tile, with the row's accumulated sum replicated; so entry (r, c) of the first array is row
  block r / 8's break-loss total and of the second its regression total. The host operations after the kernel sum each
  array from zero and divide by 1024 and by 2^25, then add the two means with weights one.
-/
import proofs.«128348_j80341658239297_1_alg».proof.Proof.KClosed
import Idealize.ShloMosaic.Lib.Pipeline.Value
import Idealize.ShloMosaic.Lib.StableHlo.Run
import Idealize.ShloMosaic.PureOps.Ideal.Laws

noncomputable section

namespace Cert.KernelIdeal.Run

open Cert.KernelIdeal Cert.KernelIdeal.Gen Cert.KernelIdeal.Acc Cert.KernelIdeal.Inv Cert.KernelIdeal.Closed Cert.Proof
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first result array after the kernel: entry (r, c) is row block r / 8's break-loss total. -/
def G4 (c : Dev nD) : (⟨2, ![64, 128]⟩ : Shape).Idx → EReal :=
  fun y => Loss.rowAcc Loss.bceK (A0 m c) (A2 m c) ⟨(y 0).val / 8, by have := idx2_lt0 y; omega⟩ 15 (by decide)

/-- The second: row block r / 8's regression total. -/
def G5 (c : Dev nD) : (⟨2, ![64, 128]⟩ : Shape).Idx → EReal :=
  fun y => Loss.rowAcc Loss.regK (A1 m c) (A3 m c) ⟨(y 0).val / 8, by have := idx2_lt0 y; omega⟩ 15 (by decide)

/-- The block index of both result windows at a grid point, decided once over the grid: block row t / 16, block
    column 0. -/
private theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
private theorem idx5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)

/-- A row block's accumulator depends only on the numbers naming the row block and the tile. -/
private theorem rowAcc_congr (f : EReal → EReal → EReal) (a b : (⟨2, ![2048, 16384]⟩ : Shape).Idx → EReal)
    (i i' : Fin 8) (j j' : ℕ) (hj : j < 16) (hj' : j' < 16) (hi : i.val = i'.val) (hjj : j = j') :
    Loss.rowAcc f a b i j hj = Loss.rowAcc f a b i' j' hj' := by
  obtain rfl : i = i' := Fin.ext hi
  subst hjj
  rfl

/-- What a row's last point writes back to the first result array is its block of `G4`: the block holds the row's
    accumulated total at every entry, and row 8 (t / 16) + y of the array belongs to row block t / 16. -/
private theorem flushed_eq4 (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  show (cfg0.win 4).cut (grid0.coords t) ((dats m 0 c).after 4 t) = _
  rw [after0_4, ((outsAt_eq m c t.val t.isLt).2.2 h15).1]
  funext y
  rw [View.read_apply]
  show sc0 m c t.val t.isLt _ = G4 m c (((cfg0.win 4).blk t).view.emb y)
  rw [sc0_eq]
  unfold G4
  refine rowAcc_congr _ _ _ _ _ _ _ _ _ ?_ h15
  show t.val / 16 = (win0_4.index t (0 : Fin 2) * 8 + 1 * (y 0).val) / 8
  have hy : (y 0).val < 8 := (y 0).isLt
  rw [(idx4 t).1]
  omega

/-- Every entry (r, c) of the first result array lies in the block written back at row block r / 8's last point,
    t = 16 (r / 8) + 15: that block is rows 8 (r / 8) … 8 (r / 8) + 7, all 128 columns. -/
private theorem cover4 (i : S64x128.Idx) :
    ∃ t : Fin cfg0.N, (cfg0.win 4).flush t = true ∧ i ∈ ((cfg0.win 4).blk t).view.set := by
  have hN : cfg0.N = 128 := N_0
  have hi0 : (i 0).val < 64 := (i 0).isLt
  have hi1 : (i 1).val < 128 := (i 1).isLt
  have ht : 16 * ((i 0).val / 8) + 15 < cfg0.N := by omega
  obtain ⟨e0, e1⟩ := idx4 ⟨16 * ((i 0).val / 8) + 15, ht⟩
  refine ⟨⟨16 * ((i 0).val / 8) + 15, ht⟩, (flush0_4 _).mpr (by dsimp only; omega), ?_⟩
  show i ∈ ((View.whole main_v0_0).slice (win0_4.rect ⟨16 * ((i 0).val / 8) + 15, ht⟩)).set
  rw [View.set_slice_whole, Rect.mem_set_unit]
  intro a
  dsimp only at e0 e1
  match a with
  | ⟨0, _⟩ =>
    show win0_4.index ⟨16 * ((i 0).val / 8) + 15, ht⟩ (0 : Fin 2) * 8 ≤ (i 0).val
      ∧ (i 0).val < win0_4.index ⟨16 * ((i 0).val / 8) + 15, ht⟩ (0 : Fin 2) * 8 + 8
    omega
  | ⟨1, _⟩ =>
    show win0_4.index ⟨16 * ((i 0).val / 8) + 15, ht⟩ (1 : Fin 2) * 128 ≤ (i 1).val
      ∧ (i 1).val < win0_4.index ⟨16 * ((i 0).val / 8) + 15, ht⟩ (1 : Fin 2) * 128 + 128
    omega

theorem final4 (c : Dev nD) : (dats m 0 c).arrAt 4 cfg0.N = G4 m c :=
  (dats m 0 c).arrAt_eq_of_cover 4 (G4 m c) (flushed_eq4 m c) cover4

/-- The second result array likewise, with the regression accumulator. -/
private theorem flushed_eq5 (c : Dev nD) (t : Fin cfg0.N) (hf : (cfg0.win 5).flush t = true) :
    (dats m 0 c).flushed 5 t = ((cfg0.win 5).blk t).view.read (Elt Ideal) (G5 m c) := by
  have h15 : t.val % 16 = 15 := (flush0_5 t).mp hf
  show (cfg0.win 5).cut (grid0.coords t) ((dats m 0 c).after 5 t) = _
  rw [after0_5, ((outsAt_eq m c t.val t.isLt).2.2 h15).2]
  funext y
  rw [View.read_apply]
  show sc1 m c t.val t.isLt _ = G5 m c (((cfg0.win 5).blk t).view.emb y)
  rw [sc1_eq]
  unfold G5
  refine rowAcc_congr _ _ _ _ _ _ _ _ _ ?_ h15
  show t.val / 16 = (win0_5.index t (0 : Fin 2) * 8 + 1 * (y 0).val) / 8
  have hy : (y 0).val < 8 := (y 0).isLt
  rw [(idx5 t).1]
  omega

/-- Every entry (r, c) of the second result array lies in the block written back at row block r / 8's last point,
    t = 16 (r / 8) + 15: that block is rows 8 (r / 8) … 8 (r / 8) + 7, all 128 columns. -/
private theorem cover5 (i : S64x128.Idx) :
    ∃ t : Fin cfg0.N, (cfg0.win 5).flush t = true ∧ i ∈ ((cfg0.win 5).blk t).view.set := by
  have hN : cfg0.N = 128 := N_0
  have hi0 : (i 0).val < 64 := (i 0).isLt
  have hi1 : (i 1).val < 128 := (i 1).isLt
  have ht : 16 * ((i 0).val / 8) + 15 < cfg0.N := by omega
  obtain ⟨e0, e1⟩ := idx5 ⟨16 * ((i 0).val / 8) + 15, ht⟩
  refine ⟨⟨16 * ((i 0).val / 8) + 15, ht⟩, (flush0_5 _).mpr (by dsimp only; omega), ?_⟩
  show i ∈ ((View.whole main_v0_1).slice (win0_5.rect ⟨16 * ((i 0).val / 8) + 15, ht⟩)).set
  rw [View.set_slice_whole, Rect.mem_set_unit]
  intro a
  dsimp only at e0 e1
  match a with
  | ⟨0, _⟩ =>
    show win0_5.index ⟨16 * ((i 0).val / 8) + 15, ht⟩ (0 : Fin 2) * 8 ≤ (i 0).val
      ∧ (i 0).val < win0_5.index ⟨16 * ((i 0).val / 8) + 15, ht⟩ (0 : Fin 2) * 8 + 8
    omega
  | ⟨1, _⟩ =>
    show win0_5.index ⟨16 * ((i 0).val / 8) + 15, ht⟩ (1 : Fin 2) * 128 ≤ (i 1).val
      ∧ (i 1).val < win0_5.index ⟨16 * ((i 0).val / 8) + 15, ht⟩ (1 : Fin 2) * 128 + 128
    omega

theorem final5 (c : Dev nD) : (dats m 0 c).arrAt 5 cfg0.N = G5 m c :=
  (dats m 0 c).arrAt_eq_of_cover 5 (G5 m c) (flushed_eq5 m c) cover5

/-- The host operations on one result array: its entries summed from zero, over 1024, over 2^25. When entry (r, c) is
    row block r / 8's total, that is the kernel's mean. -/
private theorem hostMean_eq (f : EReal → EReal → EReal) (a b : (⟨2, ![2048, 16384]⟩ : Shape).Idx → EReal)
    (g : S64x128.Idx → EReal)
    (hg : ∀ (r : Fin 64) (c : Fin 128),
      g (ix2 r c) = Loss.rowAcc f a b ⟨r.val / 8, by have := r.isLt; omega⟩ 15 (by decide)) :
    (Host.divf (Host.divf (Host.reduceAdd (F := Ideal) (φ := .f32) g (constant S_ .f32 0x00000000#32)
        reducesTo_S64x128_S_d0_1 h_S_) (constant S_ .f32 0x44800000#32)) (constant S_ .f32 0x4C000000#32)
      : S_.Idx → EReal) = fun _ => Loss.kMean f a b := by
  funext j
  show Ideal.div (Ideal.div (Ideal.hostReduceAdd reducesTo_S64x128_S_d0_1 g (Loss.lit 0x00000000#32) j)
    (Loss.lit 0x44800000#32)) (Loss.lit 0x4C000000#32) = _
  rw [Ideal.hostReduceAdd_total _ (fun b => b.elim0), sum_idx2]
  unfold Loss.kMean
  simp only [hg]

/-- After the kernel the two result arrays, as the host operations read them, hold `G4` and `G5`. -/
private theorem arr4_eq (c : Dev nD) :
    Pipeline.withArrays (cfgs 0).spec c (V0 m c) (fun w => (dats m 0 c).arrAt w (cfgs 0).N) (Proc.tc.devRef main_v0_0)
      = G4 m c :=
  (Pipeline.withArrays_arr spec0 launch0.win.arr_inj c _ _ 4).trans (final4 m c)
private theorem arr5_eq (c : Dev nD) :
    Pipeline.withArrays (cfgs 0).spec c (V0 m c) (fun w => (dats m 0 c).arrAt w (cfgs 0).N) (Proc.tc.devRef main_v0_1)
      = G5 m c :=
  (Pipeline.withArrays_arr spec0 launch0.win.arr_inj c _ _ 5).trans (final5 m c)

/-- The break-loss mean the host operations leave. -/
private theorem tail_v3 (c : Dev nD) :
    Pipeline.afterTail₀ cfgs (dats m) 0 (V0 m) [hostOps1] c main_v3
      = fun _ => Loss.kMean Loss.bceK (A0 m c) (A2 m c) := by
  unfold Pipeline.afterTail₀
  show StableHlo.after hostOps1 _ (Proc.devRef .tc main_v3) = _
  after_results
  rw [arr4_eq]
  exact hostMean_eq _ _ _ _ fun r c => rfl

/-- The regression mean. -/
private theorem tail_v6 (c : Dev nD) :
    Pipeline.afterTail₀ cfgs (dats m) 0 (V0 m) [hostOps1] c main_v6
      = fun _ => Loss.kMean Loss.regK (A1 m c) (A3 m c) := by
  unfold Pipeline.afterTail₀
  show StableHlo.after hostOps1 _ (Proc.devRef .tc main_v6) = _
  after_results
  rw [arr5_eq]
  exact hostMean_eq _ _ _ _ fun r c => rfl

/-- Their sum with weights one. -/
private theorem tail_v9 (c : Dev nD) :
    Pipeline.afterTail₀ cfgs (dats m) 0 (V0 m) [hostOps1] c main_v9
      = fun _ => Loss.lit 0x3F800000#32 * Loss.kMean Loss.bceK (A0 m c) (A2 m c)
          + Loss.lit 0x3F800000#32 * Loss.kMean Loss.regK (A1 m c) (A3 m c) := by
  unfold Pipeline.afterTail₀
  show StableHlo.after hostOps1 _ (Proc.devRef .tc main_v9) = _
  after_results
  rw [arr4_eq, arr5_eq, hostMean_eq _ _ _ (G4 m c) fun r c => rfl, hostMean_eq _ _ _ (G5 m c) fun r c => rfl]
  rfl

/-- Every weakly fair execution of the kernel program ends with the three results at the two means and their sum, the
    arguments unchanged. -/
theorem run : θ_run defs (onTc (τ := τ) (main (F := Ideal))) ⟨m, fun _ => 0, ρ⟩ fun r => ∀ c : Dev nD,
      r.2.mem ((c.tc : Thread nD τ).loc main_v9)
          = (fun _ => Loss.lit 0x3F800000#32 * Loss.kMean Loss.bceK (A0 m c) (A2 m c)
              + Loss.lit 0x3F800000#32 * Loss.kMean Loss.regK (A1 m c) (A3 m c))
      ∧ r.2.mem ((c.tc : Thread nD τ).loc main_v3) = (fun _ => Loss.kMean Loss.bceK (A0 m c) (A2 m c))
      ∧ r.2.mem ((c.tc : Thread nD τ).loc main_v6) = (fun _ => Loss.kMean Loss.regK (A1 m c) (A3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  have h3 := (h c).2 main_v3 (Pipeline.mem_restRefs_of main_v3 rfl (by intro w; fin_cases w <;> decide))
  have h6 := (h c).2 main_v6 (Pipeline.mem_restRefs_of main_v6 rfl (by intro w; fin_cases w <;> decide))
  have h9 := (h c).2 main_v9 (Pipeline.mem_restRefs_of main_v9 rfl (by intro w; fin_cases w <;> decide))
  exact ⟨h9.trans (tail_v9 m c), h3.trans (tail_v3 m c), h6.trans (tail_v6 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩

end Cert.KernelIdeal.Run

end
-- ==== Proof.RefRun.lean ====
/-
  The reference program's run: its host operations in order, the functions it calls written out at their call sites,
  and each of its three results as the operations' composed term of the four argument arrays.
-/
import proofs.«128348_j80341658239297_1_alg».proof.Proof.Gen.ReferenceIdeal
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- A scalar spread over the [2048, 16384] shape, -/
abbrev spreadA {α : Type} (v : S_.Idx → α) : S2048x16384.Idx → α := broadcastInDim S2048x16384 ![] bcast_S_S2048x16384 v
/-- and over the flat shape. -/
abbrev spreadV {α : Type} (v : S_.Idx → α) : S33554432.Idx → α := broadcastInDim S33554432 ![] bcast_S_S33554432 v

/-- jnp.clip of a [2048, 16384] array between two scalars. -/
def clipA (x : FVec F S2048x16384 .f32) (lo hi : FVec F S_ .f32) : FVec F S2048x16384 .f32 :=
  minimumf (spreadA hi) (maximumf (spreadA lo) x)

/-- jnp.clip of a flat array between two scalars. -/
def clipV (x : FVec F S33554432 .f32) (lo hi : FVec F S_ .f32) : FVec F S33554432 .f32 :=
  minimumf (spreadV hi) (maximumf (spreadV lo) x)

/-- The break loss: the mean over all elements of the clamped cross-entropy term. -/
def brkOut (a0 a2 : FVec F S2048x16384 .f32) : FVec F S_ .f32 :=
  Host.divf
    (Host.reduceAdd
      (Host.negf (addf
        (mulf (clipA a2 (constant S_ .f32 0x00000000#32) (constant S_ .f32 0x3F800000#32))
          (maximumf (Host.log (clipA a0 (constant S_ .f32 0x00000000#32) (constant S_ .f32 0x3F800000#32)))
            (spreadA (constant S_ .f32 0xC2C80000#32))))
        (mulf (subf (spreadA (constant S_ .f32 0x3F800000#32))
            (clipA a2 (constant S_ .f32 0x00000000#32) (constant S_ .f32 0x3F800000#32)))
          (maximumf (Host.log1p (Host.negf (clipA a0 (constant S_ .f32 0x00000000#32) (constant S_ .f32 0x3F800000#32))))
            (spreadA (constant S_ .f32 0xC2C80000#32))))))
      (constant S_ .f32 0x00000000#32) reducesTo_S2048x16384_S_d0_1 h_S_)
    (constant S_ .f32 0x4C000000#32)

/-- The flattened regression targets' class indices, made non-negative the way an index into a table is. -/
def clsIdx (yt : FVec F S33554432 .f32) : IVec S33554432 32 :=
  select
    (cmpi .slt (fptosi 32 (clipV (Host.roundeven yt) (constant S_ .f32 0x00000000#32) (constant S_ .f32 0x40400000#32)))
      (spreadV (constantI S_ 32 0#32)))
    (addi (fptosi 32 (clipV (Host.roundeven yt) (constant S_ .f32 0x00000000#32) (constant S_ .f32 0x40400000#32)))
      (spreadV (constantI S_ 32 4#32)))
    (fptosi 32 (clipV (Host.roundeven yt) (constant S_ .f32 0x00000000#32) (constant S_ .f32 0x40400000#32)))

/-- The class weights looked up in the table [1, 4, 3, 2]. -/
def clsW (yt : FVec F S33554432 .f32) : FVec F S33554432 .f32 :=
  Host.gather gather_S4_S33554432x1_S33554432_n_0_n_n_0_1_1
    (fun i => FloatOps.ofBits .f32 (lit0 (S4.rowMajor i)))
    (broadcastInDim S33554432x1 ![0] bcast_S33554432_S33554432x1_0 (clsIdx yt))

/-- The regression loss: the mean over the flattened arrays of 0.25 · ramp² · smooth-L1 · weight. -/
def regOut (a1 a3 : FVec F S2048x16384 .f32) : FVec F S_ .f32 :=
  Host.divf
    (Host.reduceAdd
      (mulf (mulf (mulf (spreadV (constant S_ .f32 0x3E800000#32))
          (Host.powf
            (clipV (Host.divf (Host.absf (subf (shapeCast S33554432 a1 shapeCasts_S2048x16384_S33554432)
                  (shapeCast S33554432 a3 shapeCasts_S2048x16384_S33554432)))
                (spreadV (constant S_ .f32 0x3F000000#32)))
              (constant S_ .f32 0x00000000#32) (constant S_ .f32 0x3F800000#32))
            (spreadV (constant S_ .f32 0x40000000#32))))
        (select
          (cmpf .olt (Host.absf (subf (shapeCast S33554432 a1 shapeCasts_S2048x16384_S33554432)
              (shapeCast S33554432 a3 shapeCasts_S2048x16384_S33554432)))
            (spreadV (constant S_ .f32 0x3F000000#32)))
          (Host.divf
            (mulf (mulf (spreadV (constant S_ .f32 0x3F000000#32))
                (Host.absf (subf (shapeCast S33554432 a1 shapeCasts_S2048x16384_S33554432)
                  (shapeCast S33554432 a3 shapeCasts_S2048x16384_S33554432))))
              (Host.absf (subf (shapeCast S33554432 a1 shapeCasts_S2048x16384_S33554432)
                (shapeCast S33554432 a3 shapeCasts_S2048x16384_S33554432))))
            (spreadV (constant S_ .f32 0x3F000000#32)))
          (subf (Host.absf (subf (shapeCast S33554432 a1 shapeCasts_S2048x16384_S33554432)
              (shapeCast S33554432 a3 shapeCasts_S2048x16384_S33554432)))
            (spreadV (constant S_ .f32 0x3E800000#32)))))
        (clsW (shapeCast S33554432 a3 shapeCasts_S2048x16384_S33554432)))
      (constant S_ .f32 0x00000000#32) reducesTo_S33554432_S_d0 h_S_)
    (constant S_ .f32 0x4C000000#32)

/-- The total: the two losses with weights one, added. -/
def totOut (a0 a1 a2 a3 : FVec F S2048x16384 .f32) : FVec F S_ .f32 :=
  addf (mulf (constant S_ .f32 0x3F800000#32) (brkOut a0 a2)) (mulf (constant S_ .f32 0x3F800000#32) (regOut a1 a3))

/-- The program's 102 operations in order: the 76 of its own, and at each of its six calls the called function's
    operations over that call's buffers (a clip is six: the lower bound converted to its own type, spread, the
    maximum, then the same for the upper bound and the minimum; a rounding and a selection are one each). -/
abbrev ops : List (HloOp τ sig (Elt F)) :=
  [
    nullary main_cst (fun i => FloatOps.ofBits .f32 (lit0 (S4.rowMajor i))),
    nullary main_cst_0 (constant S_ .f32 0x00000000#32),
    nullary main_cst_1 (constant S_ .f32 0x3F800000#32),
    TRef.unary (.of main_cst_0) main_call0.v0 id,
    TRef.unary main_call0.v0 main_call0.v1 (broadcastInDim S2048x16384 ![] bcast_S_S2048x16384),
    TRef.binary main_call0.v1 (.of main_arg2) main_call0.v2 maximumf,
    TRef.unary (.of main_cst_1) main_call0.v3 id,
    TRef.unary main_call0.v3 main_call0.v4 (broadcastInDim S2048x16384 ![] bcast_S_S2048x16384),
    TRef.binary main_call0.v4 main_call0.v2 main_call0.v5 minimumf,
    nullary main_cst_2 (constant S_ .f32 0x00000000#32),
    nullary main_cst_3 (constant S_ .f32 0x3F800000#32),
    TRef.unary (.of main_cst_2) main_call1.v0 id,
    TRef.unary main_call1.v0 main_call1.v1 (broadcastInDim S2048x16384 ![] bcast_S_S2048x16384),
    TRef.binary main_call1.v1 (.of main_arg0) main_call1.v2 maximumf,
    TRef.unary (.of main_cst_3) main_call1.v3 id,
    TRef.unary main_call1.v3 main_call1.v4 (broadcastInDim S2048x16384 ![] bcast_S_S2048x16384),
    TRef.binary main_call1.v4 main_call1.v2 main_call1.v5 minimumf,
    unary main_v1 main_v2 (Host.log : (⟨S2048x16384, .f32⟩ : BufTy).Contents (Elt F) → (⟨S2048x16384, .f32⟩ : BufTy).Contents (Elt F)),
    nullary main_cst_4 (constant S_ .f32 0xC2C80000#32),
    unary main_cst_4 main_v3 (broadcastInDim S2048x16384 ![] bcast_S_S2048x16384 : (⟨S_, .f32⟩ : BufTy).Contents (Elt F) → (⟨S2048x16384, .f32⟩ : BufTy).Contents (Elt F)),
    binary main_v2 main_v3 main_v4 (maximumf : (⟨S2048x16384, .f32⟩ : BufTy).Contents (Elt F) → (⟨S2048x16384, .f32⟩ : BufTy).Contents (Elt F) → (⟨S2048x16384, .f32⟩ : BufTy).Contents (Elt F)),
    unary main_v1 main_v5 (Host.negf : (⟨S2048x16384, .f32⟩ : BufTy).Contents (Elt F) → (⟨S2048x16384, .f32⟩ : BufTy).Contents (Elt F)),
    unary main_v5 main_v6 (Host.log1p : (⟨S2048x16384, .f32⟩ : BufTy).Contents (Elt F) → (⟨S2048x16384, .f32⟩ : BufTy).Contents (Elt F)),
    nullary main_cst_5 (constant S_ .f32 0xC2C80000#32),
    unary main_cst_5 main_v7 (broadcastInDim S2048x16384 ![] bcast_S_S2048x16384 : (⟨S_, .f32⟩ : BufTy).Contents (Elt F) → (⟨S2048x16384, .f32⟩ : BufTy).Contents (Elt F)),
    binary main_v6 main_v7 main_v8 (maximumf : (⟨S2048x16384, .f32⟩ : BufTy).Contents (Elt F) → (⟨S2048x16384, .f32⟩ : BufTy).Contents (Elt F) → (⟨S2048x16384, .f32⟩ : BufTy).Contents (Elt F)),
    binary main_v0 main_v4 main_v9 (mulf : (⟨S2048x16384, .f32⟩ : BufTy).Contents (Elt F) → (⟨S2048x16384, .f32⟩ : BufTy).Contents (Elt F) → (⟨S2048x16384, .f32⟩ : BufTy).Contents (Elt F)),
    nullary main_cst_6 (constant S_ .f32 0x3F800000#32),
    unary main_cst_6 main_v10 (broadcastInDim S2048x16384 ![] bcast_S_S2048x16384 : (⟨S_, .f32⟩ : BufTy).Contents (Elt F) → (⟨S2048x16384, .f32⟩ : BufTy).Contents (Elt F)),
    binary main_v10 main_v0 main_v11 (subf : (⟨S2048x16384, .f32⟩ : BufTy).Contents (Elt F) → (⟨S2048x16384, .f32⟩ : BufTy).Contents (Elt F) → (⟨S2048x16384, .f32⟩ : BufTy).Contents (Elt F)),
    binary main_v11 main_v8 main_v12 (mulf : (⟨S2048x16384, .f32⟩ : BufTy).Contents (Elt F) → (⟨S2048x16384, .f32⟩ : BufTy).Contents (Elt F) → (⟨S2048x16384, .f32⟩ : BufTy).Contents (Elt F)),
    binary main_v9 main_v12 main_v13 (addf : (⟨S2048x16384, .f32⟩ : BufTy).Contents (Elt F) → (⟨S2048x16384, .f32⟩ : BufTy).Contents (Elt F) → (⟨S2048x16384, .f32⟩ : BufTy).Contents (Elt F)),
    unary main_v13 main_v14 (Host.negf : (⟨S2048x16384, .f32⟩ : BufTy).Contents (Elt F) → (⟨S2048x16384, .f32⟩ : BufTy).Contents (Elt F)),
    nullary main_cst_7 (constant S_ .f32 0x00000000#32),
    binary main_v14 main_cst_7 main_v15 ((fun x v => Host.reduceAdd x v reducesTo_S2048x16384_S_d0_1 h_S_) : (⟨S2048x16384, .f32⟩ : BufTy).Contents (Elt F) → (⟨S_, .f32⟩ : BufTy).Contents (Elt F) → (⟨S_, .f32⟩ : BufTy).Contents (Elt F)),
    nullary main_cst_8 (constant S_ .f32 0x4C000000#32),
    binary main_v15 main_cst_8 main_v16 (Host.divf : (⟨S_, .f32⟩ : BufTy).Contents (Elt F) → (⟨S_, .f32⟩ : BufTy).Contents (Elt F) → (⟨S_, .f32⟩ : BufTy).Contents (Elt F)),
    reshape main_arg1 main_v17 rfl shapeCasts_S2048x16384_S33554432,
    reshape main_arg3 main_v18 rfl shapeCasts_S2048x16384_S33554432,
    TRef.unary (.of main_v18) main_call2.v0 Host.roundeven,
    nullary main_cst_9 (constant S_ .f32 0x00000000#32),
    nullary main_cst_10 (constant S_ .f32 0x40400000#32),
    TRef.unary (.of main_cst_9) main_call3.v0 id,
    TRef.unary main_call3.v0 main_call3.v1 (broadcastInDim S33554432 ![] bcast_S_S33554432),
    TRef.binary main_call3.v1 (.of main_v19) main_call3.v2 maximumf,
    TRef.unary (.of main_cst_10) main_call3.v3 id,
    TRef.unary main_call3.v3 main_call3.v4 (broadcastInDim S33554432 ![] bcast_S_S33554432),
    TRef.binary main_call3.v4 main_call3.v2 main_call3.v5 minimumf,
    unary main_v20 main_v21 (fptosi 32 : (⟨S33554432, .f32⟩ : BufTy).Contents (Elt F) → (⟨S33554432, .i32⟩ : BufTy).Contents (Elt F)),
    nullary main_c (constantI S_ 32 0#32),
    unary main_c main_v22 (broadcastInDim S33554432 ![] bcast_S_S33554432 : (⟨S_, .i32⟩ : BufTy).Contents (Elt F) → (⟨S33554432, .i32⟩ : BufTy).Contents (Elt F)),
    binary main_v21 main_v22 main_v23 (cmpi .slt : (⟨S33554432, .i32⟩ : BufTy).Contents (Elt F) → (⟨S33554432, .i32⟩ : BufTy).Contents (Elt F) → (⟨S33554432, .i1⟩ : BufTy).Contents (Elt F)),
    nullary main_c_11 (constantI S_ 32 4#32),
    unary main_c_11 main_v24 (broadcastInDim S33554432 ![] bcast_S_S33554432 : (⟨S_, .i32⟩ : BufTy).Contents (Elt F) → (⟨S33554432, .i32⟩ : BufTy).Contents (Elt F)),
    binary main_v21 main_v24 main_v25 (addi : (⟨S33554432, .i32⟩ : BufTy).Contents (Elt F) → (⟨S33554432, .i32⟩ : BufTy).Contents (Elt F) → (⟨S33554432, .i32⟩ : BufTy).Contents (Elt F)),
    ternary main_v23 main_v25 main_v21 main_v26 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v26 main_v27 (broadcastInDim S33554432x1 ![0] bcast_S33554432_S33554432x1_0 : (⟨S33554432, .i32⟩ : BufTy).Contents (Elt F) → (⟨S33554432x1, .i32⟩ : BufTy).Contents (Elt F)),
    binary main_cst main_v27 main_v28 ((fun x i => Host.gather gather_S4_S33554432x1_S33554432_n_0_n_n_0_1_1 x i) : (⟨S4, .f32⟩ : BufTy).Contents (Elt F) → (⟨S33554432x1, .i32⟩ : BufTy).Contents (Elt F) → (⟨S33554432, .f32⟩ : BufTy).Contents (Elt F)),
    binary main_v17 main_v18 main_v29 (subf : (⟨S33554432, .f32⟩ : BufTy).Contents (Elt F) → (⟨S33554432, .f32⟩ : BufTy).Contents (Elt F) → (⟨S33554432, .f32⟩ : BufTy).Contents (Elt F)),
    unary main_v29 main_v30 (Host.absf : (⟨S33554432, .f32⟩ : BufTy).Contents (Elt F) → (⟨S33554432, .f32⟩ : BufTy).Contents (Elt F)),
    nullary main_cst_12 (constant S_ .f32 0x3F000000#32),
    unary main_cst_12 main_v31 (broadcastInDim S33554432 ![] bcast_S_S33554432 : (⟨S_, .f32⟩ : BufTy).Contents (Elt F) → (⟨S33554432, .f32⟩ : BufTy).Contents (Elt F)),
    binary main_v30 main_v31 main_v32 (Host.divf : (⟨S33554432, .f32⟩ : BufTy).Contents (Elt F) → (⟨S33554432, .f32⟩ : BufTy).Contents (Elt F) → (⟨S33554432, .f32⟩ : BufTy).Contents (Elt F)),
    nullary main_cst_13 (constant S_ .f32 0x00000000#32),
    nullary main_cst_14 (constant S_ .f32 0x3F800000#32),
    TRef.unary (.of main_cst_13) main_call4.v0 id,
    TRef.unary main_call4.v0 main_call4.v1 (broadcastInDim S33554432 ![] bcast_S_S33554432),
    TRef.binary main_call4.v1 (.of main_v32) main_call4.v2 maximumf,
    TRef.unary (.of main_cst_14) main_call4.v3 id,
    TRef.unary main_call4.v3 main_call4.v4 (broadcastInDim S33554432 ![] bcast_S_S33554432),
    TRef.binary main_call4.v4 main_call4.v2 main_call4.v5 minimumf,
    nullary main_cst_15 (constant S_ .f32 0x40000000#32),
    unary main_cst_15 main_v34 (broadcastInDim S33554432 ![] bcast_S_S33554432 : (⟨S_, .f32⟩ : BufTy).Contents (Elt F) → (⟨S33554432, .f32⟩ : BufTy).Contents (Elt F)),
    binary main_v33 main_v34 main_v35 (Host.powf : (⟨S33554432, .f32⟩ : BufTy).Contents (Elt F) → (⟨S33554432, .f32⟩ : BufTy).Contents (Elt F) → (⟨S33554432, .f32⟩ : BufTy).Contents (Elt F)),
    nullary main_cst_16 (constant S_ .f32 0x3F000000#32),
    unary main_cst_16 main_v36 (broadcastInDim S33554432 ![] bcast_S_S33554432 : (⟨S_, .f32⟩ : BufTy).Contents (Elt F) → (⟨S33554432, .f32⟩ : BufTy).Contents (Elt F)),
    binary main_v30 main_v36 main_v37 (cmpf .olt : (⟨S33554432, .f32⟩ : BufTy).Contents (Elt F) → (⟨S33554432, .f32⟩ : BufTy).Contents (Elt F) → (⟨S33554432, .i1⟩ : BufTy).Contents (Elt F)),
    nullary main_cst_17 (constant S_ .f32 0x3F000000#32),
    unary main_cst_17 main_v38 (broadcastInDim S33554432 ![] bcast_S_S33554432 : (⟨S_, .f32⟩ : BufTy).Contents (Elt F) → (⟨S33554432, .f32⟩ : BufTy).Contents (Elt F)),
    binary main_v38 main_v30 main_v39 (mulf : (⟨S33554432, .f32⟩ : BufTy).Contents (Elt F) → (⟨S33554432, .f32⟩ : BufTy).Contents (Elt F) → (⟨S33554432, .f32⟩ : BufTy).Contents (Elt F)),
    binary main_v39 main_v30 main_v40 (mulf : (⟨S33554432, .f32⟩ : BufTy).Contents (Elt F) → (⟨S33554432, .f32⟩ : BufTy).Contents (Elt F) → (⟨S33554432, .f32⟩ : BufTy).Contents (Elt F)),
    nullary main_cst_18 (constant S_ .f32 0x3F000000#32),
    unary main_cst_18 main_v41 (broadcastInDim S33554432 ![] bcast_S_S33554432 : (⟨S_, .f32⟩ : BufTy).Contents (Elt F) → (⟨S33554432, .f32⟩ : BufTy).Contents (Elt F)),
    binary main_v40 main_v41 main_v42 (Host.divf : (⟨S33554432, .f32⟩ : BufTy).Contents (Elt F) → (⟨S33554432, .f32⟩ : BufTy).Contents (Elt F) → (⟨S33554432, .f32⟩ : BufTy).Contents (Elt F)),
    nullary main_cst_19 (constant S_ .f32 0x3E800000#32),
    unary main_cst_19 main_v43 (broadcastInDim S33554432 ![] bcast_S_S33554432 : (⟨S_, .f32⟩ : BufTy).Contents (Elt F) → (⟨S33554432, .f32⟩ : BufTy).Contents (Elt F)),
    binary main_v30 main_v43 main_v44 (subf : (⟨S33554432, .f32⟩ : BufTy).Contents (Elt F) → (⟨S33554432, .f32⟩ : BufTy).Contents (Elt F) → (⟨S33554432, .f32⟩ : BufTy).Contents (Elt F)),
    TRef.ternary (.of main_v37) (.of main_v42) (.of main_v44) main_call5.v0 select,
    nullary main_cst_20 (constant S_ .f32 0x3E800000#32),
    unary main_cst_20 main_v46 (broadcastInDim S33554432 ![] bcast_S_S33554432 : (⟨S_, .f32⟩ : BufTy).Contents (Elt F) → (⟨S33554432, .f32⟩ : BufTy).Contents (Elt F)),
    binary main_v46 main_v35 main_v47 (mulf : (⟨S33554432, .f32⟩ : BufTy).Contents (Elt F) → (⟨S33554432, .f32⟩ : BufTy).Contents (Elt F) → (⟨S33554432, .f32⟩ : BufTy).Contents (Elt F)),
    binary main_v47 main_v45 main_v48 (mulf : (⟨S33554432, .f32⟩ : BufTy).Contents (Elt F) → (⟨S33554432, .f32⟩ : BufTy).Contents (Elt F) → (⟨S33554432, .f32⟩ : BufTy).Contents (Elt F)),
    binary main_v48 main_v28 main_v49 (mulf : (⟨S33554432, .f32⟩ : BufTy).Contents (Elt F) → (⟨S33554432, .f32⟩ : BufTy).Contents (Elt F) → (⟨S33554432, .f32⟩ : BufTy).Contents (Elt F)),
    nullary main_cst_21 (constant S_ .f32 0x00000000#32),
    binary main_v49 main_cst_21 main_v50 ((fun x v => Host.reduceAdd x v reducesTo_S33554432_S_d0 h_S_) : (⟨S33554432, .f32⟩ : BufTy).Contents (Elt F) → (⟨S_, .f32⟩ : BufTy).Contents (Elt F) → (⟨S_, .f32⟩ : BufTy).Contents (Elt F)),
    nullary main_cst_22 (constant S_ .f32 0x4C000000#32),
    binary main_v50 main_cst_22 main_v51 (Host.divf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v16 main_v52 (mulf : (⟨S_, .f32⟩ : BufTy).Contents (Elt F) → (⟨S_, .f32⟩ : BufTy).Contents (Elt F) → (⟨S_, .f32⟩ : BufTy).Contents (Elt F)),
    nullary main_cst_24 (constant S_ .f32 0x3F800000#32),
    binary main_cst_24 main_v51 main_v53 (mulf : (⟨S_, .f32⟩ : BufTy).Contents (Elt F) → (⟨S_, .f32⟩ : BufTy).Contents (Elt F) → (⟨S_, .f32⟩ : BufTy).Contents (Elt F)),
    binary main_v52 main_v53 main_v54 (addf : (⟨S_, .f32⟩ : BufTy).Contents (Elt F) → (⟨S_, .f32⟩ : BufTy).Contents (Elt F) → (⟨S_, .f32⟩ : BufTy).Contents (Elt F)) ]

set_option maxHeartbeats 4000000 in
/-- The program is that straight line: its two halves and the called functions unfolded, sequencing reassociated. -/
theorem main_eq (c : Dev nD) : main (F := F) c = seq ops := by
  simp only [main, main_part0, main_part1, fn_clip.body, fn_round.body, fn_clip_0.body, fn_where.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    nullary_bufs_sub .., unary_bufs_sub .., binary_bufs_sub .., unary_bufs_sub .., unary_bufs_sub .., nullary_bufs_sub ..,
    unary_bufs_sub .., binary_bufs_sub .., binary_bufs_sub .., nullary_bufs_sub .., unary_bufs_sub .., binary_bufs_sub ..,
    binary_bufs_sub .., binary_bufs_sub .., unary_bufs_sub .., nullary_bufs_sub .., binary_bufs_sub .., nullary_bufs_sub ..,
    binary_bufs_sub .., reshape_bufs_sub .., reshape_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., binary_bufs_sub .., binary_bufs_sub .., nullary_bufs_sub .., binary_bufs_sub .., nullary_bufs_sub ..,
    binary_bufs_sub .., nullary_bufs_sub .., binary_bufs_sub .., nullary_bufs_sub .., binary_bufs_sub .., binary_bufs_sub ..⟩

/-! What the operations leave in the result buffers and the argument buffers, from any contents `V`: the fold of
    the operations' results, computed. A sum over an array and a table lookup are kept folded meanwhile: the
    equations never look inside them. -/

attribute [local irreducible] Host.gather Host.reduceAdd

set_option maxHeartbeats 4000000 in
private theorem v16_eq (V : Valuation τ sig (Elt F)) :
    after ops V (main_v16 : DevRef τ sig) = brkOut (V (main_arg0 : DevRef τ sig)) (V (main_arg2 : DevRef τ sig)) := by
  after_results_simp
  rfl

set_option maxHeartbeats 4000000 in
private theorem v51_eq (V : Valuation τ sig (Elt F)) :
    after ops V (main_v51 : DevRef τ sig) = regOut (V (main_arg1 : DevRef τ sig)) (V (main_arg3 : DevRef τ sig)) := by
  after_results_simp
  rfl

set_option maxHeartbeats 4000000 in
private theorem v54_eq (V : Valuation τ sig (Elt F)) :
    after ops V (main_v54 : DevRef τ sig)
      = totOut (V (main_arg0 : DevRef τ sig)) (V (main_arg1 : DevRef τ sig)) (V (main_arg2 : DevRef τ sig))
          (V (main_arg3 : DevRef τ sig)) := by
  after_results_simp
  rfl

set_option maxHeartbeats 4000000 in
private theorem arg0_eq (V : Valuation τ sig (Elt F)) :
    after ops V (main_arg0 : DevRef τ sig) = V (main_arg0 : DevRef τ sig) := by
  after_results_simp

set_option maxHeartbeats 4000000 in
private theorem arg1_eq (V : Valuation τ sig (Elt F)) :
    after ops V (main_arg1 : DevRef τ sig) = V (main_arg1 : DevRef τ sig) := by
  after_results_simp

set_option maxHeartbeats 4000000 in
private theorem arg2_eq (V : Valuation τ sig (Elt F)) :
    after ops V (main_arg2 : DevRef τ sig) = V (main_arg2 : DevRef τ sig) := by
  after_results_simp

set_option maxHeartbeats 4000000 in
private theorem arg3_eq (V : Valuation τ sig (Elt F)) :
    after ops V (main_arg3 : DevRef τ sig) = V (main_arg3 : DevRef τ sig) := by
  after_results_simp

set_option maxHeartbeats 4000000 in
/-- Every weakly fair execution of the reference program ends with its three results at these terms of the argument
    arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = totOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v16)
          = brkOut (m ((c.tc : Thread nD τ).loc main_arg0)) (m ((c.tc : Thread nD τ).loc main_arg2))
      ∧ r.2.mem ((c.tc : Thread nD τ).loc main_v51)
          = regOut (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c main_v54).trans (v54_eq _), (h c main_v16).trans (v16_eq _),
      (h c main_v51).trans (v51_eq _), (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.SpecScalar.lean ====
/-
  The element terms of the two programs agree on the extended reals: subtracting from zero is negating; the focal
  ramp is a real number in [0, 1], so its power with exponent 2 is its square; and the class of a target, a value
  rounded and clipped to [0, 3] and then truncated to an integer, is one of 0, 1, 2, 3.
-/
import proofs.«128348_j80341658239297_1_alg».proof.Proof.Spec
import Idealize.ShloMosaic.PureOps.Ideal.Laws
import Mathlib.Analysis.SpecialFunctions.Pow.Real
import Mathlib.Tactic.IntervalCases

noncomputable section

namespace Cert.Proof.Loss

open Idealize.ShloMosaic Idealize.ShloMosaic.ValueIdx

/-- The word 0x00000000 denotes 0. -/
private theorem lit_zero : lit 0x00000000#32 = 0 := Ideal.ofBits_zero_f32

/-- The word 0x3F800000 denotes 1. -/
private theorem lit_one : lit 0x3F800000#32 = ((1 : ℝ) : EReal) := by
  simp [lit, Ideal.ofBits, Ideal.ieee, -EReal.coe_mul]; norm_num

/-- The word 0x40000000 denotes 2. -/
private theorem lit_two : lit 0x40000000#32 = ((2 : ℝ) : EReal) := by
  simp [lit, Ideal.ofBits, Ideal.ieee, -EReal.coe_mul]; norm_num

/-- The word 0x40400000 denotes 3. -/
private theorem lit_three : lit 0x40400000#32 = ((3 : ℝ) : EReal) := by
  simp [lit, Ideal.ofBits, Ideal.ieee, -EReal.coe_mul]; norm_num

/-- The embedding of the reals into the extended reals is monotone, so it commutes with max. -/
private theorem coe_max_real (a b : ℝ) : ((max a b : ℝ) : EReal) = max (a : EReal) (b : EReal) :=
  EReal.coe_strictMono.monotone.map_max

/-- Likewise with min. -/
private theorem coe_min_real (a b : ℝ) : ((min a b : ℝ) : EReal) = min (a : EReal) (b : EReal) :=
  EReal.coe_strictMono.monotone.map_min

/-- Subtracting from zero is negating. -/
theorem bceK_eq (p t : EReal) : bceK p t = bceR p t := by
  unfold bceK bceR
  rw [lit_zero, zero_sub, zero_sub]

/-- Clipping -∞, +∞ or an integer to [0, 3] gives an integer k with 0 ≤ k ≤ 3. -/
private theorem clip3_int (e : EReal) (he : e = ⊥ ∨ e = ⊤ ∨ ∃ z : ℤ, e = ((z : ℝ) : EReal)) :
    ∃ k : ℤ, 0 ≤ k ∧ k ≤ 3 ∧ min ((3 : ℝ) : EReal) (max 0 e) = ((k : ℝ) : EReal) := by
  rcases he with rfl | rfl | ⟨z, rfl⟩
  · exact ⟨0, le_refl _, by norm_num, by simp⟩
  · exact ⟨3, by norm_num, le_refl _, by simp⟩
  · refine ⟨min 3 (max 0 z), le_min (by norm_num) (le_max_left _ _), min_le_left _ _, ?_⟩
    rw [Int.cast_min, Int.cast_max, coe_min_real, coe_max_real]
    simp

/-- Truncating an integer k in [0, 3] to a signed 32-bit integer gives k: its floor is k, and the clamp to
    [-2^31, 2^31 - 1] leaves it alone. -/
private theorem fptosi_small (k : ℤ) (h0 : 0 ≤ k) (h3 : k ≤ 3) :
    Ideal.fptosi 32 ((k : ℝ) : EReal) = BitVec.ofInt 32 k := by
  have hk : (0 : ℝ) ≤ (k : ℝ) := by exact_mod_cast h0
  unfold Ideal.fptosi
  rw [Ideal.toIntClamped_coe, if_pos hk, Int.floor_intCast]
  congr 1
  norm_num
  omega

/-- The class is one of 0, 1, 2, 3. -/
theorem cls_cases (yt : EReal) : cls yt = 0#32 ∨ cls yt = 1#32 ∨ cls yt = 2#32 ∨ cls yt = 3#32 := by
  have he : Ideal.liftRound Ideal.roundHalfEven yt = ⊥ ∨ Ideal.liftRound Ideal.roundHalfEven yt = ⊤
      ∨ ∃ z : ℤ, Ideal.liftRound Ideal.roundHalfEven yt = ((z : ℝ) : EReal) := by
    induction yt using EReal.rec with
    | bot => exact Or.inl rfl
    | top => exact Or.inr (Or.inl rfl)
    | coe r => exact Or.inr (Or.inr ⟨_, rfl⟩)
  obtain ⟨k, h0, h3, hk⟩ := clip3_int _ he
  unfold cls
  rw [lit_three, lit_zero, hk, fptosi_small k h0 h3]
  interval_cases k
  · exact Or.inl rfl
  · exact Or.inr (Or.inl rfl)
  · exact Or.inr (Or.inr (Or.inl rfl))
  · exact Or.inr (Or.inr (Or.inr rfl))

/-- The ramp, a clip to [0, 1] of an extended real, is a real number in [0, 1]. -/
private theorem ramp_real (d : EReal) : ∃ x : ℝ, 0 ≤ x ∧ x ≤ 1 ∧ ramp d = (x : EReal) := by
  unfold ramp
  rw [lit_one, lit_zero]
  generalize Ideal.div d (lit 0x3F000000#32) = e
  induction e using EReal.rec with
  | bot => exact ⟨0, le_refl _, zero_le_one, by simp⟩
  | top => exact ⟨1, zero_le_one, le_refl _, by simp⟩
  | coe r =>
    refine ⟨min 1 (max 0 r), le_min zero_le_one (le_max_left _ _), min_le_left _ _, ?_⟩
    rw [coe_min_real, coe_max_real, EReal.coe_zero]

/-- The ramp is a real number in [0, 1], so its power with exponent 2 is its square. -/
theorem pow_two_ramp (d : EReal) : Ideal.pow (ramp d) (lit 0x40000000#32) = ramp d * ramp d := by
  obtain ⟨x, _, _, hx⟩ := ramp_real d
  rw [hx, lit_two, Ideal.pow_coe_coe, ← EReal.coe_mul]
  congr 1
  show x ^ (2 : ℝ) = x * x
  rw [Real.rpow_two, sq]

theorem regR_eq (yp yt : EReal) : regR yp yt = regK yp yt := by
  unfold regR regK; rw [pow_two_ramp]

end Cert.Proof.Loss

end
-- ==== Proof.LibIndexed.lean ====
/-
  Gathers and accumulating scatters read at an index, for the dimension numbers a row gather, a column gather, an
  entry gather and a segment sum print with. Each lemma takes the dimension record as a variable with its printed
  fields as hypotheses, so it serves any program that prints the same numbers.

  A gather reads its operand at the start index taken signed off the index column and clamped into the operand; where
  the word is already a position n of the gathered axis, it reads position n. An accumulating scatter at the extended
  reals is each operand entry plus the sum of the updates whose start index, read signed and NOT clamped, is that
  entry; an update whose index falls outside contributes nothing.
-/
import Idealize.ShloMosaic.PureOps.Ideal
import Idealize.ShloMosaic.PureOps.Contract
import Idealize.ShloMosaic.Lib.ValueIdx
import Idealize.ShloMosaic.Lib.StableHlo.Predicate

noncomputable section

namespace Cert.Proof.LibIndexed

open Idealize.ShloMosaic Idealize.ShloMosaic.ValueIdx

/-- The row gather's dimension numbers as a literal record over its well-formedness. -/
private abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at the literal record: the gathered axis reads the clamped start, the other axis the offset. -/
private theorem gather_rows_lit {α : Type} {N C E w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (n : Fin N)
    (h : (idx (ix2 e 0)).toInt = (n : ℤ)) :
    Host.gather (rowsDims N C E wf) x idx (ix2 e k) = x (ix2 n k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ)).toNat (N - 1) = n.val
    have := n.isLt
    omega
  | ⟨1, _⟩ =>
    show (rowsDims N C E wf).start (ix2 e k) idx 1 + (rowsDims N C E wf).batchCoord (ix2 e k) 1
      + (rowsDims N C E wf).offCoord (ix2 e k) 1 = k.val
    have hs : (rowsDims N C E wf).start (ix2 e k) idx 1 = 0 := by
      unfold GatherDims.start
      rw [dif_neg (show (1 : Fin 2) ∉ (rowsDims N C E wf).startIndexMap by
        show (1 : Fin 2) ∉ [(0 : Fin 2)]; decide)]
    have ho : (rowsDims N C E wf).offCoord (ix2 e k) 1 = k.val := rfl
    rw [GatherDims.batchCoord_eq_zero _ _ _ List.not_mem_nil, hs, ho]
    omega

/-- A row gather `x[idx]` of an [N × C] table by an [E × 1] column of start words: row `e`, column `k` of the result
    is row `n` of the table when edge `e`'s word, read signed, is `n`. -/
theorem gather_rows_apply {α : Type} {N C E w : Nat}
    (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![E, 1]⟩ w) (e : Fin E) (k : Fin C) (n : Fin N)
    (h : (idx (ix2 e 0)).toInt = (n : ℤ)) :
    Host.gather d x idx (ix2 e k) = x (ix2 n k) := by
  obtain ⟨od, cd, ob, sb, sm, iv, ss, wf⟩ := d
  dsimp only at hoff hcoll hob hsb hsim hivd hss
  subst hoff hcoll hob hsb hsim hivd hss
  exact gather_rows_lit wf x idx e k n h

/-- The column gather's dimension numbers as a literal record over its well-formedness. -/
private abbrev colsDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- The column gather at the literal record: the first axis reads the offset, the gathered axis the clamped start. -/
private theorem gather_cols_lit {α : Type} {R N E w : Nat}
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (r : Fin R) (e : Fin E) (n : Fin N)
    (h : (idx (ix2 e 0)).toInt = (n : ℤ)) :
    Host.gather (colsDims R N E wf) x idx (ix2 r e) = x (ix2 r n) := by
  unfold Host.gather
  congr 1
  funext a
  refine Fin.ext ?_
  match a with
  | ⟨0, _⟩ =>
    show (colsDims R N E wf).start (ix2 r e) idx 0 + (colsDims R N E wf).batchCoord (ix2 r e) 0
      + (colsDims R N E wf).offCoord (ix2 r e) 0 = r.val
    have hs : (colsDims R N E wf).start (ix2 r e) idx 0 = 0 := by
      unfold GatherDims.start
      rw [dif_neg (show (0 : Fin 2) ∉ (colsDims R N E wf).startIndexMap by
        show (0 : Fin 2) ∉ [(1 : Fin 2)]; decide)]
    have ho : (colsDims R N E wf).offCoord (ix2 r e) 0 = r.val := rfl
    rw [GatherDims.batchCoord_eq_zero _ _ _ List.not_mem_nil, hs, ho]
    omega
  | ⟨1, _⟩ =>
    show (colsDims R N E wf).start (ix2 r e) idx 1 + (colsDims R N E wf).batchCoord (ix2 r e) 1
      + (colsDims R N E wf).offCoord (ix2 r e) 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R N E wf).startIndexMap from List.mem_singleton.mpr rfl)]
    have hsi : (colsDims R N E wf).siIdx (ix2 r e) ⟨List.idxOf (1 : Fin 2) (colsDims R N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ)).toNat (N - 1) = n.val
    have := n.isLt
    omega

/-- A column gather (`jnp.take(x, idx, axis=1)`) of an [R × N] table: row `r`, column `e` of the result is column `n`
    of the table when edge `e`'s word, read signed, is `n`. -/
theorem gather_cols_apply {α : Type} {R N E w : Nat}
    (d : GatherDims ⟨2, ![R, N]⟩ ⟨2, ![E, 1]⟩ ⟨2, ![R, E]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![E, 1]⟩ w) (r : Fin R) (e : Fin E) (n : Fin N)
    (h : (idx (ix2 e 0)).toInt = (n : ℤ)) :
    Host.gather d x idx (ix2 r e) = x (ix2 r n) := by
  obtain ⟨od, cd, ob, sb, sm, iv, ss, wf⟩ := d
  dsimp only at hoff hcoll hob hsb hsim hivd hss
  subst hoff hcoll hob hsb hsim hivd hss
  exact gather_cols_lit wf x idx r e n h

/-- An entry gather `x[idx]` of a length-N vector: entry `e` of the result is entry `n` of the vector when edge
    `e`'s word, read signed, is `n`. -/
theorem gather_vec_apply {α : Type} {N E w : Nat}
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (n : Fin N)
    (h : (idx (ix2 e 0)).toInt = (n : ℤ)) :
    Host.gather d x idx (ix1 e) = x (ix1 n) := by
  have hN : 0 < N := Nat.lt_of_le_of_lt (Nat.zero_le _) n.isLt
  have h1 : (ix1 e : (⟨1, ![E]⟩ : Shape).Idx) = Shape.Idx.ofFin e := by
    funext a; match a with | ⟨0, _⟩ => rfl
  have h2 : (StableHlo.Predicate.ixP e : (⟨2, ![E, 1]⟩ : Shape).Idx) = ix2 e 0 := by
    funext b; match b with | ⟨0, _⟩ => rfl | ⟨1, _⟩ => rfl
  rw [h1, StableHlo.Predicate.gather_take d hcoll hob hsim hivd x idx e hN]
  congr 1
  funext a
  refine Fin.ext ?_
  match a with
  | ⟨0, _⟩ =>
    show min (idx (StableHlo.Predicate.ixP e)).toInt.toNat (N - 1) = n.val
    rw [h2, h]
    have := n.isLt
    omega

/-- An update lands at entry `i` exactly when, on every axis, its start read signed plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · next hin =>
    constructor
    · intro hs a
      have hf := congrFun (Option.some.inj hs) a
      have hv : (d.start j idx a + (d.window j a : ℤ)).toNat = (i a).val := congrArg Fin.val hf
      have := hin a
      omega
    · intro hall
      congr 1
      funext a
      refine Fin.ext ?_
      show (d.start j idx a + (d.window j a : ℤ)).toNat = (i a).val
      rw [hall a]
      exact Int.toNat_natCast _
  · next hout =>
    constructor
    · intro hs
      cases hs
    · intro hall
      exfalso
      apply hout
      intro a
      rw [hall a]
      exact ⟨Int.natCast_nonneg _, Int.ofNat_lt.mpr (i a).isLt⟩

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector segment sum's dimension numbers as a literal record over its well-formedness. -/
private abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s update starts, on the one operand axis, at the edge's word read signed. -/
private theorem vecScat_start {N E w : Nat} (wf : ScatterDims.WF ⟨1, ![N]⟩ ⟨2, ![E, 1]⟩ ⟨1, ![E]⟩ [] [0] [0] 1)
    (idx : IVec ⟨2, ![E, 1]⟩ w) (e : Fin E) :
    (vecScat N E wf).start (ix1 e) idx 0 = (idx (ix2 e 0)).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate on it. -/
private theorem vecScat_window {N E : Nat} (wf : ScatterDims.WF ⟨1, ![N]⟩ ⟨2, ![E, 1]⟩ ⟨1, ![E]⟩ [] [0] [0] 1)
    (e : Fin E) : (vecScat N E wf).window (ix1 e) 0 = 0 := rfl

/-- Edge `e`'s update lands at entry `n` exactly when the edge's word read signed is `n`. -/
private theorem vecScat_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScat N E wf).resultIdx? (ix1 e) idx = some (ix1 n) ↔ (idx (ix2 e 0)).toInt = (n : ℤ) := by
  rw [resultIdx?_eq_some_iff]
  have hs := vecScat_start wf idx e
  have hw := vecScat_window wf e
  constructor
  · intro hall
    have h0 : (vecScat N E wf).start (ix1 e) idx 0 + ((vecScat N E wf).window (ix1 e) 0 : ℤ) = (n.val : ℤ) := hall 0
    omega
  · intro hW a
    match a with
    | ⟨0, _⟩ =>
      show (vecScat N E wf).start (ix1 e) idx 0 + ((vecScat N E wf).window (ix1 e) 0 : ℤ) = (n.val : ℤ)
      omega

/-- The vector segment sum at the literal record. -/
private theorem scatterAdd_vec_lit {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScat N E wf) x idx upd (ix1 n)
      = (x (ix1 n) : EReal) + ∑ e : Fin E, if (idx (ix2 e 0)).toInt = (n : ℤ) then (upd (ix1 e) : EReal) else 0 := by
  unfold Host.scatterAdd
  rw [Ideal.hostScatterAdd_def]
  unfold Ideal.hostScatterAdd
  congr 1
  rw [Finset.sum_filter, sum_idx1]
  refine Finset.sum_congr rfl (fun e _ => ?_)
  by_cases hW : (idx (ix2 e 0)).toInt = (n : ℤ)
  · rw [if_pos hW, if_pos ((vecScat_lands wf idx e n).2 hW)]
  · rw [if_neg hW, if_neg (fun hc => hW ((vecScat_lands wf idx e n).1 hc))]

/-- A segment sum into a length-N vector, at the extended reals: entry `n` is the operand's entry plus the sum, over
    the edges whose word read signed is `n`, of the edge's update. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = (x (ix1 n) : EReal) + ∑ e : Fin E, if (idx (ix2 e 0)).toInt = (n : ℤ) then (upd (ix1 e) : EReal) else 0 := by
  obtain ⟨uw, iw, sd, iv, wf⟩ := d
  dsimp only at huw hiw hsd hivd
  subst huw hiw hsd hivd
  exact scatterAdd_vec_lit wf x idx upd n

/-- The row segment sum's dimension numbers as a literal record over its well-formedness. -/
private abbrev rowsScat (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e`'s update row starts, on the row axis, at the edge's word read signed … -/
private theorem rowsScat_start0 {N C E w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScat N C E wf).start (ix2 e k) idx 0 = (idx (ix2 e 0)).toInt := by
  unfold ScatterDims.start
  rw [dif_pos (show (0 : Fin 2) ∈ (rowsScat N C E wf).scatterDimsToOperandDims from List.mem_singleton.mpr rfl)]
  have hsi : (rowsScat N C E wf).siIdx (ix2 e k) ⟨List.idxOf (0 : Fin 2) (rowsScat N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at zero. -/
private theorem rowsScat_start1 {N C E w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScat N C E wf).start (ix2 e k) idx 1 = 0 := by
  unfold ScatterDims.start
  rw [dif_neg (show (1 : Fin 2) ∉ (rowsScat N C E wf).scatterDimsToOperandDims by
    show (1 : Fin 2) ∉ [(0 : Fin 2)]; decide)]

/-- The row axis is inserted: no window coordinate on it … -/
private theorem rowsScat_window0 {N C E : Nat}
    (wf : ScatterDims.WF ⟨2, ![N, C]⟩ ⟨2, ![E, 1]⟩ ⟨2, ![E, C]⟩ [1] [0] [0] 1) (e : Fin E) (k : Fin C) :
    (rowsScat N C E wf).window (ix2 e k) 0 = 0 := rfl

/-- … and the column axis carries the update's column. -/
private theorem rowsScat_window1 {N C E : Nat}
    (wf : ScatterDims.WF ⟨2, ![N, C]⟩ ⟨2, ![E, 1]⟩ ⟨2, ![E, C]⟩ [1] [0] [0] 1) (e : Fin E) (k : Fin C) :
    (rowsScat N C E wf).window (ix2 e k) 1 = k.val := rfl

/-- Column `k'` of edge `e`'s update row lands at row `n`, column `k` exactly when the edge's word read signed is
    `n` and `k'` is `k`. -/
private theorem rowsScat_lands {N C E w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (n : Fin N) (k : Fin C) :
    (rowsScat N C E wf).resultIdx? (ix2 e k') idx = some (ix2 n k)
      ↔ (idx (ix2 e 0)).toInt = (n : ℤ) ∧ k' = k := by
  rw [resultIdx?_eq_some_iff]
  have hs0 := rowsScat_start0 wf idx e k'
  have hs1 := rowsScat_start1 wf idx e k'
  have hw0 := rowsScat_window0 wf e k'
  have hw1 := rowsScat_window1 wf e k'
  constructor
  · intro hall
    have h0 : (rowsScat N C E wf).start (ix2 e k') idx 0 + ((rowsScat N C E wf).window (ix2 e k') 0 : ℤ)
        = (n.val : ℤ) := hall 0
    have h1 : (rowsScat N C E wf).start (ix2 e k') idx 1 + ((rowsScat N C E wf).window (ix2 e k') 1 : ℤ)
        = (k.val : ℤ) := hall 1
    refine ⟨by omega, Fin.ext (by omega)⟩
  · rintro ⟨hW, rfl⟩ a
    match a with
    | ⟨0, _⟩ =>
      show (rowsScat N C E wf).start (ix2 e k') idx 0 + ((rowsScat N C E wf).window (ix2 e k') 0 : ℤ) = (n.val : ℤ)
      omega
    | ⟨1, _⟩ =>
      show (rowsScat N C E wf).start (ix2 e k') idx 1 + ((rowsScat N C E wf).window (ix2 e k') 1 : ℤ) = (k'.val : ℤ)
      omega

/-- The row segment sum at the literal record: of an edge's update row only column `k` can land in column `k`. -/
private theorem scatterAdd_rows_lit {N C E w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) (rowsScat N C E wf) x idx upd (ix2 n k)
      = (x (ix2 n k) : EReal) + ∑ e : Fin E, if (idx (ix2 e 0)).toInt = (n : ℤ) then (upd (ix2 e k) : EReal) else 0 := by
  unfold Host.scatterAdd
  rw [Ideal.hostScatterAdd_def]
  unfold Ideal.hostScatterAdd
  congr 1
  rw [Finset.sum_filter, sum_idx2]
  refine Finset.sum_congr rfl (fun e _ => ?_)
  by_cases hW : (idx (ix2 e 0)).toInt = (n : ℤ)
  · rw [if_pos hW, Finset.sum_eq_single k]
    · rw [if_pos ((rowsScat_lands wf idx e k n k).2 ⟨hW, rfl⟩)]
    · intro k' _ hk'
      rw [if_neg (fun hc => hk' ((rowsScat_lands wf idx e k' n k).1 hc).2)]
    · intro hk
      exact absurd (Finset.mem_univ k) hk
  · rw [if_neg hW]
    refine Finset.sum_eq_zero (fun k' _ => ?_)
    rw [if_neg (fun hc => hW ((rowsScat_lands wf idx e k' n k).1 hc).1)]

/-- A segment sum of rows into an [N × C] table, at the extended reals: row `n`, column `k` is the operand's entry plus
    the sum, over the edges whose word read signed is `n`, of column `k` of the edge's update row. -/
theorem scatterAdd_rows_apply {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) d x idx upd (ix2 n k)
      = (x (ix2 n k) : EReal) + ∑ e : Fin E, if (idx (ix2 e 0)).toInt = (n : ℤ) then (upd (ix2 e k) : EReal) else 0 := by
  obtain ⟨uw, iw, sd, iv, wf⟩ := d
  dsimp only at huw hiw hsd hivd
  subst huw hiw hsd hivd
  exact scatterAdd_rows_lit wf x idx upd n k

end Cert.Proof.LibIndexed

end
-- ==== Proof.RefValue.lean ====
/-
  The reference's two losses on the extended reals, index by index: the break loss is the whole-array mean of the
  cross-entropy term; the regression loss, computed on the flattened arrays, is the whole-array mean of the regression
  term, flat position k being row k / 16384, column k % 16384, and the table look-up at a class in 0 … 3 being the
  weight the comparisons select.
-/
import proofs.«128348_j80341658239297_1_alg».proof.Proof.RefRun
import proofs.«128348_j80341658239297_1_alg».proof.Proof.Spec
import proofs.«128348_j80341658239297_1_alg».proof.Proof.SpecScalar
import proofs.«128348_j80341658239297_1_alg».proof.Proof.LibIndexed
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun Cert.Proof
open Idealize.ShloMosaic Idealize.ShloMosaic.ValueIdx

/-- The reference's break loss is the mean of the cross-entropy term over the whole arrays. -/
theorem brkOut_eq (a0 a2 : FVec Ideal S2048x16384 .f32) :
    brkOut (F := Ideal) a0 a2 = fun _ => Loss.rMean Loss.bceR a0 a2 := by
  funext j
  unfold brkOut Host.divf Host.reduceAdd
  rw [Ideal.hostDivf_def, Ideal.hostReduceAdd_def, Ideal.hostReduceAdd_total _ (fun b => b.elim0), sum_idx2]
  unfold Loss.rMean Loss.wholeSum
  refine congrArg₂ Ideal.div (congrArg₂ (· + ·) rfl
    (Finset.sum_congr rfl fun R _ => Finset.sum_congr rfl fun C _ => ?_)) rfl
  rfl

/-! ## Flat positions

The flattened array has one axis of 2048 · 16384 = 33554432 positions; position 16384 · R + C holds row R, column C. -/

/-- A rank-1 index set is its coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- Row R and column C against flat position 16384 · R + C; back by quotient and remainder. -/
private def flatEquiv : Fin 2048 × Fin 16384 ≃ Fin 33554432 where
  toFun p := ⟨16384 * p.1.val + p.2.val, by have := p.1.isLt; have := p.2.isLt; omega⟩
  invFun k := (⟨k.val / 16384, by have := k.isLt; omega⟩, ⟨k.val % 16384, by omega⟩)
  left_inv p := by
    obtain ⟨⟨r, hr⟩, ⟨c, hc⟩⟩ := p
    refine Prod.ext (Fin.ext ?_) (Fin.ext ?_)
    · show (16384 * r + c) / 16384 = r
      omega
    · show (16384 * r + c) % 16384 = c
      omega
  right_inv k := Fin.ext (by
    show 16384 * (k.val / 16384) + k.val % 16384 = k.val
    omega)

/-- A sum over the flat positions is the double sum over rows and columns. -/
private theorem sum_flat {M : Type*} [AddCommMonoid M] (f : Fin 33554432 → M) :
    ∑ k, f k = ∑ R : Fin 2048, ∑ C : Fin 16384, f (flatEquiv (R, C)) := by
  rw [← Equiv.sum_comp flatEquiv f, Fintype.sum_prod_type]

/-- The flattened array at position 16384 · R + C is the array at row R, column C: the two have the same row-major
    position. -/
private theorem flat_apply {α : Type} (a : S2048x16384.Idx → α) (h : S2048x16384.ShapeCasts S33554432)
    (R : Fin 2048) (C : Fin 16384) :
    shapeCast S33554432 a h (ix1 (flatEquiv (R, C))) = a (ix2 R C) := by
  refine shapeCast_apply a h _ _ ?_
  rw [Shape.rowMajor_val_two, Shape.rowMajor_val_one]
  show R.val * 16384 + C.val = 16384 * R.val + C.val
  omega

/-! ## The class weight

A class word in 0 … 3 is not negative, so the index the table is read at is the class itself, and entry n of the table
[1, 4, 3, 2] is the weight the comparisons with 0, 1, 2 select. -/

/-- For a class word c in 0 … 3: the word made non-negative reads, signed, as a position n of the table, and the
    table's entry n is the weight selected for c. -/
private theorem weight_word (c : BitVec 32) (hc : c = 0#32 ∨ c = 1#32 ∨ c = 2#32 ∨ c = 3#32) :
    ∃ n : Fin 4, (Scalar.select (IntOp.cmpi .slt c 0#32) (IntOp.addi c 4#32) c).toInt = (n : ℤ)
      ∧ Loss.lit (lit0 n) = Loss.wSel c := by
  rcases hc with rfl | rfl | rfl | rfl
  · exact ⟨0, by decide, rfl⟩
  · exact ⟨1, by decide, rfl⟩
  · exact ⟨2, by decide, rfl⟩
  · exact ⟨3, by decide, rfl⟩

/-- The looked-up weight at flat position k is the selected weight of the class of the target there: the index column
    holds the class word made non-negative, which reads as a table position n, and the table's entry at row-major
    position n is its n-th literal. -/
private theorem clsW_apply (yt : FVec Ideal S33554432 .f32) (k : Fin 33554432) :
    clsW (F := Ideal) yt (ix1 k) = Loss.wSel (Loss.cls (yt (ix1 k))) := by
  obtain ⟨n, hn, hw⟩ := weight_word (Loss.cls (yt (ix1 k))) (Loss.cls_cases _)
  unfold clsW
  refine (LibIndexed.gather_vec_apply _ rfl rfl rfl rfl _ _ k n ?_).trans ?_
  · have e : broadcastInDim S33554432x1 ![0] bcast_S33554432_S33554432x1_0 (clsIdx (F := Ideal) yt) (ix2 k 0)
        = clsIdx yt (ix1 k) :=
      broadcastInDim_apply _ _ _ _ _ (fun a => by match a with | ⟨0, _⟩ => rfl)
    rw [e]
    exact hn
  · rw [← hw]
    exact congrArg (fun m => Loss.lit (lit0 m)) (Fin.ext (Shape.rowMajor_val_one _))

/-- The reference's regression loss is the mean of the regression term over the whole arrays: the sum over the flat
    positions is the double sum over rows and columns, the flattened arrays read there are the arrays at (R, C), the
    looked-up weight is the selected one, and the other three factors are the regression term's own operations. -/
theorem regOut_eq (a1 a3 : FVec Ideal S2048x16384 .f32) :
    regOut (F := Ideal) a1 a3 = fun _ => Loss.rMean Loss.regR a1 a3 := by
  funext j
  unfold regOut Host.divf Host.reduceAdd
  rw [Ideal.hostDivf_def, Ideal.hostReduceAdd_def, Ideal.hostReduceAdd_total _ (fun b => b.elim0), sum_idx1, sum_flat]
  unfold Loss.rMean Loss.wholeSum
  refine congrArg₂ Ideal.div (congrArg₂ (· + ·) rfl
    (Finset.sum_congr rfl fun R _ => Finset.sum_congr rfl fun C _ => ?_)) rfl
  rw [mulf_apply, clsW_apply, flat_apply]
  unfold Loss.regR
  refine congrArg₂ (· * ·) ?_ rfl
  rw [← flat_apply a1 shapeCasts_S2048x16384_S33554432 R C, ← flat_apply a3 shapeCasts_S2048x16384_S33554432 R C]
  generalize shapeCast S33554432 a1 _ = y1
  generalize shapeCast S33554432 a3 _ = y3
  generalize flatEquiv (R, C) = K
  rfl

end Cert.ReferenceIdeal.RefValue

end
-- ==== Proof.SpecSums.lean ====
/-
  The sums that join the tiled accumulation to the whole-array mean, on the extended reals, where addition is
  commutative and associative but does not distribute over multiplication: the whole sum regroups into the 8 × 16 tile
  sums; a row's accumulator, started from zero, ends at the sum of its 16 tile sums; and 8 numbers each replicated
  1024 times, summed and divided by 1024, are the 8 numbers summed — for every extended real, the infinite ones
  included, by cases on the sum.
-/
import proofs.«128348_j80341658239297_1_alg».proof.Proof.Spec
import Idealize.ShloMosaic.PureOps.Ideal.Laws

noncomputable section

namespace Cert.Proof.Loss

open Idealize.ShloMosaic Idealize.ShloMosaic.ValueIdx

/-- The bound for a split index: with a < m and b < n, n · a + b < m · n. -/
private theorem split_lt {m n a b : ℕ} (ha : a < m) (hb : b < n) : n * a + b < m * n :=
  calc n * a + b < n * a + n := Nat.add_lt_add_left hb _
    _ = n * (a + 1) := (Nat.mul_succ n a).symm
    _ ≤ n * m := Nat.mul_le_mul_left n ha
    _ = m * n := Nat.mul_comm n m

/-- A sum over N = m · n indices is the double sum over quotient a and remainder b, the index being n · a + b. -/
private theorem sum_split {N : ℕ} (m n : ℕ) (h : N = m * n) (g : Fin N → EReal) :
    ∑ k, g k = ∑ a : Fin m, ∑ b : Fin n, g ⟨n * a.val + b.val, h ▸ split_lt a.isLt b.isLt⟩ := by
  subst h
  rw [← finProdFinEquiv.sum_comp g, Fintype.sum_prod_type]
  refine Finset.sum_congr rfl fun a _ => Finset.sum_congr rfl fun b _ => ?_
  refine congrArg g (Fin.ext ?_)
  rw [finProdFinEquiv_apply_val]
  exact Nat.add_comm _ _

/-- The whole sum is the sum of the 8 × 16 tile sums. -/
theorem wholeSum_eq_tiles (f : EReal → EReal → EReal) (a b : (⟨2, ![2048, 16384]⟩ : Shape).Idx → EReal) :
    wholeSum f a b = ∑ i : Fin 8, ∑ j : Fin 16, tileSum f (tileOf a i j) (tileOf b i j) := by
  unfold wholeSum tileSum tileOf
  -- rows: R = 256 i + r
  rw [sum_split 8 256 (by norm_num) (fun R => ∑ C : Fin 16384, f (a (ix2 R C)) (b (ix2 R C)))]
  refine Finset.sum_congr rfl fun i _ => ?_
  -- columns: C = 1024 j + c, inside every row
  have hcol : ∀ r : Fin 256,
      (∑ C : Fin 16384, f (a (ix2 (⟨256 * i.val + r.val, by have := i.isLt; have := r.isLt; omega⟩ : Fin 2048) C))
          (b (ix2 (⟨256 * i.val + r.val, by have := i.isLt; have := r.isLt; omega⟩ : Fin 2048) C)))
        = ∑ j : Fin 16, ∑ c : Fin 1024,
            f (a (ix2 (⟨256 * i.val + r.val, by have := i.isLt; have := r.isLt; omega⟩ : Fin 2048)
                (⟨1024 * j.val + c.val, by have := j.isLt; have := c.isLt; omega⟩ : Fin 16384)))
              (b (ix2 (⟨256 * i.val + r.val, by have := i.isLt; have := r.isLt; omega⟩ : Fin 2048)
                (⟨1024 * j.val + c.val, by have := j.isLt; have := c.isLt; omega⟩ : Fin 16384))) := fun r =>
    sum_split 16 1024 (by norm_num) _
  rw [Finset.sum_congr rfl fun r _ => hcol r, Finset.sum_comm]

/-- The zero word denotes 0. -/
private theorem lit_zero : lit 0x00000000#32 = 0 := Ideal.ofBits_zero_f32

/-- After tile j the accumulator is the sum of the tile sums 0 … j. -/
private theorem rowAcc_eq (f : EReal → EReal → EReal) (a b : (⟨2, ![2048, 16384]⟩ : Shape).Idx → EReal) (i : Fin 8) :
    ∀ (j : ℕ) (h : j < 16), rowAcc f a b i j h
      = ∑ k : Fin (j + 1), tileSum f (tileOf a i ⟨k.val, by have := k.isLt; omega⟩) (tileOf b i ⟨k.val, by have := k.isLt; omega⟩)
  | 0, h => by
    rw [rowAcc, lit_zero, zero_add, Fin.sum_univ_castSucc]
    simp
  | j + 1, h => by
    rw [rowAcc, rowAcc_eq f a b i j (Nat.lt_of_succ_lt h), Fin.sum_univ_castSucc (n := j + 1)]
    rfl

/-- After the last tile the accumulator is the sum of the row's 16 tile sums. -/
theorem rowAcc_last (f : EReal → EReal → EReal) (a b : (⟨2, ![2048, 16384]⟩ : Shape).Idx → EReal) (i : Fin 8) :
    rowAcc f a b i 15 (by decide) = ∑ j : Fin 16, tileSum f (tileOf a i j) (tileOf b i j) := by
  rw [rowAcc_eq f a b i 15 (by decide)]

/-- The word 0x44800000 denotes 1024. -/
private theorem lit_1024 : lit 0x44800000#32 = ((1024 : ℝ) : EReal) := by
  simp [Ideal.ofBits, Ideal.ieee, -EReal.coe_mul]; norm_num

/-- A positive number of copies of -∞ sums to -∞. -/
private theorem succ_nsmul_bot (n : ℕ) : (n + 1) • (⊥ : EReal) = ⊥ := by
  rw [succ_nsmul, EReal.add_bot]

/-- A positive number of copies of +∞ sums to +∞. -/
private theorem succ_nsmul_top : ∀ n : ℕ, (n + 1) • (⊤ : EReal) = ⊤
  | 0 => by rw [zero_add, one_nsmul]
  | n + 1 => by rw [succ_nsmul, succ_nsmul_top n, EReal.top_add_top]

/-- 1024 copies of S, summed from zero and divided by 1024, are S from zero: for every extended real S. -/
private theorem replicas_div (S : EReal) :
    Ideal.div (0 + 1024 • S) ((1024 : ℝ) : EReal) = 0 + S := by
  rw [Ideal.div_coe (by norm_num), zero_add, zero_add]
  induction S using EReal.rec with
  | bot => rw [succ_nsmul_bot 1023, EReal.bot_mul_coe_of_pos (by norm_num)]
  | top => rw [succ_nsmul_top 1023, EReal.top_mul_coe_of_pos (by norm_num)]
  | coe x =>
    rw [← EReal.coe_nsmul, ← EReal.coe_mul, nsmul_eq_mul]
    refine congrArg _ ?_
    push_cast
    ring

/-- 8 values, each replicated over an 8 × 128 block of a [64, 128] array, summed from zero and divided by 1024 and then
    by n: the same as the 8 values summed from zero and divided by n. -/
theorem mean_of_replicas (g : Fin 8 → EReal) (n : EReal) :
    Ideal.div (Ideal.div (lit 0x00000000#32 + ∑ r : Fin 64, ∑ _c : Fin 128, g ⟨r.val / 8, by have := r.isLt; omega⟩)
        (lit 0x44800000#32)) n
      = Ideal.div (lit 0x00000000#32 + ∑ i : Fin 8, g i) n := by
  -- the double sum is 1024 copies of the 8 values' sum
  have hrows : (∑ r : Fin 64, g ⟨r.val / 8, by have := r.isLt; omega⟩) = 8 • ∑ i : Fin 8, g i := by
    rw [sum_split 8 8 (by norm_num) (fun r : Fin 64 => g ⟨r.val / 8, by have := r.isLt; omega⟩), ← Finset.sum_nsmul]
    refine Finset.sum_congr rfl fun i _ => ?_
    have hq : ∀ r' : Fin 8, g ⟨(8 * i.val + r'.val) / 8, by have := i.isLt; have := r'.isLt; omega⟩ = g i := fun r' =>
      congrArg g (Fin.ext (by show (8 * i.val + r'.val) / 8 = i.val; have := r'.isLt; omega))
    rw [Finset.sum_congr rfl fun r' _ => hq r', Finset.sum_const, Finset.card_univ, Fintype.card_fin]
  have hsum : (∑ r : Fin 64, ∑ _c : Fin 128, g ⟨r.val / 8, by have := r.isLt; omega⟩) = 1024 • ∑ i : Fin 8, g i := by
    simp only [Finset.sum_const, Finset.card_univ, Fintype.card_fin]
    rw [Finset.sum_nsmul, hrows, ← mul_nsmul]
  rw [hsum, lit_1024, lit_zero, replicas_div]

theorem kMean_eq_rMean (f : EReal → EReal → EReal) (a b : (⟨2, ![2048, 16384]⟩ : Shape).Idx → EReal) :
    kMean f a b = rMean f a b := by
  unfold kMean rMean
  rw [mean_of_replicas (fun i => rowAcc f a b i 15 (by decide)) (lit 0x4C000000#32), wholeSum_eq_tiles]
  simp only [rowAcc_last]

end Cert.Proof.Loss

end
-- ==== Proof.lean ====
/-
  Two losses of four [2048, 16384] arrays — a clamped binary cross-entropy of the first and third, and a class-weighted
  focal smooth-L1 of the second and fourth — each averaged over all 2^25 elements, and their sum.

  The kernel program walks an 8 × 16 grid of [256, 1024] tiles; two [8, 128] accumulators, reset at the start of each
  row of tiles, gain each tile's sum, and after a row's last tile are copied into block i of two [64, 128] arrays; the
  host then sums each array, divides by 8 · 128 (each row total stands in 1024 entries) and by 2^25. The reference
  computes the two means directly, the second on the flattened arrays with the class weight looked up in a table and
  the ramp squared by a power. On the extended reals the element terms agree (subtracting from zero is negating; the
  ramp is a real in [0, 1], so its square is its second power; the class is one of 0 … 3, where the table holds what the
  comparisons select), the tile sums regroup into the whole sum, and 1024 copies of a number summed and divided by 1024
  give the number back, infinite or not: the precondition is never opened.

  The frames of the two kernel programs are the generated ones; the reference's is its run with the results dropped.
-/
import proofs.«128348_j80341658239297_1_alg».proof.Defs
import proofs.«128348_j80341658239297_1_alg».proof.Proof.Gen.Kernel
import proofs.«128348_j80341658239297_1_alg».proof.Proof.Gen.Kernel.Frame
import proofs.«128348_j80341658239297_1_alg».proof.Proof.Gen.KernelIdeal
import proofs.«128348_j80341658239297_1_alg».proof.Proof.Gen.KernelIdeal.Frame
import proofs.«128348_j80341658239297_1_alg».proof.Proof.Gen.ReferenceIdeal
import proofs.«128348_j80341658239297_1_alg».proof.Proof.Gen.Pre_finite_inputs
import proofs.«128348_j80341658239297_1_alg».proof.Proof.KRun
import proofs.«128348_j80341658239297_1_alg».proof.Proof.RefValue
import proofs.«128348_j80341658239297_1_alg».proof.Proof.SpecScalar
import proofs.«128348_j80341658239297_1_alg».proof.Proof.SpecSums
import Idealize.ShloMosaic.Adequacy
import Idealize.ShloMosaic.Init

noncomputable section

namespace Cert.Proof

open Idealize.ShloMosaic Idealize.ShloMosaic.TcCoe Idealize.SL.Sem
open Cert.ReferenceIdeal.RefRun Cert.ReferenceIdeal.RefValue

/-- The reference's break loss is the kernel program's: the element terms agree and the tile sums regroup. -/
theorem brk_bridge (a0 a2 : FVec Ideal Cert.ReferenceIdeal.S2048x16384 .f32) :
    brkOut (F := Ideal) a0 a2 = fun _ => Loss.kMean Loss.bceK a0 a2 := by
  rw [brkOut_eq, Loss.kMean_eq_rMean, Loss.rMean_congr Loss.bceK Loss.bceR Loss.bceK_eq]

/-- The reference's regression loss is the kernel program's. -/
theorem reg_bridge (a1 a3 : FVec Ideal Cert.ReferenceIdeal.S2048x16384 .f32) :
    regOut (F := Ideal) a1 a3 = fun _ => Loss.kMean Loss.regK a1 a3 := by
  rw [regOut_eq, Loss.kMean_eq_rMean, Loss.rMean_congr Loss.regR Loss.regK Loss.regR_eq]

/-- And so is the total. -/
theorem tot_bridge (a0 a1 a2 a3 : FVec Ideal Cert.ReferenceIdeal.S2048x16384 .f32) :
    totOut (F := Ideal) a0 a1 a2 a3
      = fun _ => Loss.lit 0x3F800000#32 * Loss.kMean Loss.bceK a0 a2 + Loss.lit 0x3F800000#32 * Loss.kMean Loss.regK a1 a3 := by
  unfold totOut
  rw [brk_bridge, reg_bridge]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.RefRun.run (F := Ideal) m ρ)

/-- Both programs end with the two means and their sum of arguments that agree. -/
theorem algebraic : Cert.algebraic_KernelIdeal_ReferenceIdeal := by
  intro m ρ m' ρ' _ hagree
  refine ⟨_, _, _, Cert.KernelIdeal.Run.run m ρ, ?_⟩
  refine (θ_run Cert.ReferenceIdeal.defs _ _).mono (fun _ h c => ?_) (Cert.ReferenceIdeal.RefRun.run (F := Ideal) m' ρ')
  obtain ⟨h54, h16, h51, hargs⟩ := h c
  obtain ⟨e0, e1, e2, e3⟩ := hagree c
  refine ⟨h54.trans ?_, h16.trans ?_, h51.trans ?_, hargs⟩
  · rw [e0, e1, e2, e3]; exact tot_bridge _ _ _ _
  · rw [e0, e2]; exact brk_bridge _ _
  · rw [e1, e3]; exact reg_bridge _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
